-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S64x1024 : Shape := ⟨2, ![64, 1024]⟩
abbrev S64 : Shape := ⟨1, ![64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x1024 .f32) (main_arg6 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x2048x1024 .f32) (main_arg1 : FVec F S64x1024 .f32) (main_arg2 : FVec F S64 .f32) (main_arg3 : FVec F S64x1024 .f32) (main_arg4 : FVec F S64 .f32) (main_arg5 : FVec F S64x1024 .f32) (main_arg6 : FVec F S64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S4x2048x1024 : Shape := ⟨3, ![4, 2048, 1024]⟩
abbrev S64x1024 : Shape := ⟨2, ![64, 1024]⟩
abbrev S64 : Shape := ⟨1, ![64]⟩
abbrev S1024x64 : Shape := ⟨2, ![1024, 64]⟩
abbrev S1024x192 : Shape := ⟨2, ![1024, 192]⟩
abbrev S192 : Shape := ⟨1, ![192]⟩
abbrev S1x192 : Shape := ⟨2, ![1, 192]⟩
abbrev S4x2048x64 : Shape := ⟨3, ![4, 2048, 64]⟩
abbrev S1x2048x1024 : Shape := ⟨3, ![1, 2048, 1024]⟩
abbrev S1x512x64 : Shape := ⟨3, ![1, 512, 64]⟩
abbrev S2048x64 : Shape := ⟨2, ![2048, 64]⟩
abbrev S2048x1024 : Shape := ⟨2, ![2048, 1024]⟩
abbrev S2048x192 : Shape := ⟨2, ![2048, 192]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x192, .f32⟩
  | .hbm, ⟨11, _⟩ => ⟨S1024x192, .bf16⟩
  | .hbm, ⟨12, _⟩ => ⟨S192, .f32⟩
  | .hbm, ⟨13, _⟩ => ⟨S1x192, .f32⟩
  | .hbm, ⟨14, _⟩ => ⟨S4x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x192, .bf16⟩
  | .local _ .vmem, ⟨3, _⟩ => ⟨S1x192, .f32⟩
  | .local _ .vmem, ⟨4, _⟩ => ⟨S1x512x64, .f32⟩
  | .local _ .vmem, ⟨5, _⟩ => ⟨S1x512x64, .f32⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S64x1024_S1024x64_1_0 : S64x1024.Transposes [1, 0] S1024x64
  concatenates_S1024x64_S1024x64_S1024x64_S1024x192_d1 : Shape.Concatenates [S1024x64, S1024x64, S1024x64] S1024x192 1
  bitsLt_bf16_f32 : FTy.bits .bf16 < FTy.bits .f32
  concatenates_S64_S64_S64_S192_d0 : Shape.Concatenates [S64, S64, S64] S192 0
  shapeCasts_S192_S1x192 : S192.ShapeCasts S1x192
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2048x192 : S1x192.Broadcasts S2048x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  slices_S2048x192_o0_64_S2048x64 : S2048x192.Slices ![0, 64] S2048x64
  slices_S2048x192_o0_128_S2048x64 : S2048x192.Slices ![0, 128] S2048x64
  h_S512x64 : 0 < S512x64.numel
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x1024_S1024x192_S2048x192_1_0_0_1_n_n_wf : DotDims.WF S2048x1024 S1024x192 S2048x192 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .bf16 = 32 ∨ (Rect.block (s := S1024x192) S1024x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x2048x64.size a
  hwx0_3 : ∀ i : grid0.Coords, EltTy.bits .f32 = 32 ∨ (Rect.block (s := S4x2048x64) S1x512x64.size (cc0_transform_3 i) (hinb0_3 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S64x1024 : Shape := ⟨2, ![64, 1024]⟩
abbrev S64 : Shape := ⟨1, ![64]⟩
abbrev S4x2048x64 : Shape := ⟨3, ![4, 2048, 64]⟩
abbrev S1x1x64 : Shape := ⟨3, ![1, 1, 64]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S4x2048x64, .f32⟩
  | .hbm, ⟨8, _⟩ => ⟨S1x1x64, .f32⟩
  | .hbm, ⟨9, _⟩ => ⟨S4x2048x64, .f32⟩
  | .hbm, ⟨10, _⟩ => ⟨S4x2048x64, .f32⟩
  | .hbm, ⟨11, _⟩ => ⟨S4x2048x64, .f32⟩
  | .hbm, ⟨12, _⟩ => ⟨S1x1x64, .f32⟩
  | .hbm, ⟨13, _⟩ => ⟨S4x2048x64, .f32⟩
  | .hbm, ⟨14, _⟩ => ⟨S4x2048x64, .f32⟩
  | .hbm, ⟨15, _⟩ => ⟨S4x2048x64, .f32⟩
  | .hbm, ⟨16, _⟩ => ⟨S1x1x64, .f32⟩
  | .hbm, ⟨17, _⟩ => ⟨S4x2048x64, .f32⟩
  | .hbm, ⟨18, _⟩ => ⟨S4x2048x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S64x1024_S4x2048x64_2_1_01_0_n_n_wf : DotDims.WF S4x2048x1024 S64x1024 S4x2048x64 [2] [1] [0, 1] [0] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.KBKit.lean ====
/-
  The program up to its one region, and what the frame claim needs of a run through it.

  @main is seven host operations (three transposes, the concatenation of the three transposed weights, its change of
  format, the concatenation of the three biases, its reshape) and then the region. `V` is what every device buffer holds
  when the region is entered; no host operation writes an argument, so each argument is there as launched. A window's
  block at a grid point is read off `V`; an input window's staging buffer holds that block at every point. The frame
  claim's post follows from any run that ends with the pipeline's arrays at what the proof data computes and every other
  buffer as the region found it.

  The kernel body branches once, on the second grid coordinate being zero; over the sixteen points that is the
  points divisible by four.
-/
import proofs.«401241_j4398046511431_3_alg».proof.Proof.Gen.Kernel.Launch
import proofs.«401241_j4398046511431_3_alg».proof.Proof.Gen.Kernel.Skeleton
import proofs.«401241_j4398046511431_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post gives the frame
    claim's post: the staged input array by the library's reading of an input window's array, the six arrays no window
    stages by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch -/

/-- The condition of the body's one branch, from the grid coordinates. -/
abbrev cond0 (i : grid0.Coords) : Prop := (Scalar.cmpi .ne (Scalar.extui (Scalar.cmpi .eq (BitVec.ofNat 32 (i 1).val) 0#32)) 0#32) = 1#1
/-- It holds at the points divisible by four. -/
theorem hcond0 : ∀ t : Fin cfg0.N, cond0 (grid0.coords t) ↔ t.val % 4 = 0 :=
  (by decide +kernel : ∀ t : Fin grid0.N, cond0 (grid0.coords t) ↔ t.val % 4 = 0)

/-- No window is ever idle. -/
theorem liveAt (w : Fin cfg0.W) : ∀ t : Fin cfg0.N, cfg0.idle w (grid0.coords t) = false := fun _ => rfl

/-! ## The memrefs the body is called with -/

/-- One staging buffer of the output window, through which its contents are stated. -/
abbrev VO3 : View sig .tc .vmem S1x512x64 .f32 := (Memref.whole cc0_stg3_0 : Memref sig .tc .vmem S1x512x64 .f32).view
abbrev ms0 (t : Fin cfg0.N) : Memref sig .tc .vmem S1x2048x1024 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1024x192 .bf16 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S1x192 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x512x64 .f32 := win0_3.stage (cfg0.slots t 3)
abbrev hs3 (t : Fin cfg0.N) : (ms3 t).IsWhole := Facts₀.hstage0_3 ((cfg0.slots t 3).cast Facts₀.nbuf0_3)
/-- The three scratch operands: whole scoped buffers of the kernel's own. -/
abbrev scM0 : Memref sig .tc .vmem S2048x64 .bf16 := Memref.whole cc0_scratch0
abbrev scM1 : Memref sig .tc .vmem S2048x64 .bf16 := Memref.whole cc0_scratch1
abbrev scM2 : Memref sig .tc .vmem S2048x64 .bf16 := Memref.whole cc0_scratch2
abbrev VS0 : View sig .tc .vmem S2048x64 .bf16 := scM0.view
abbrev VS1 : View sig .tc .vmem S2048x64 .bf16 := scM1.view
abbrev VS2 : View sig .tc .vmem S2048x64 .bf16 := scM2.view

/-- The class invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.Kernel.Fr

end
-- ==== Proof.KBRunA.lean ====
/-
  The kernel body at a point where the branch is taken (the second grid coordinate is zero).

  There the body loads the input block, the fused weight and the fused bias, stores the three column bands of the
  projection into the three scratch buffers (each whole), then loads the query rows of this point out of the first
  scratch and the whole of the other two, and stores the attention result into the output's staging buffer (whole).
  The scratch buffers and the output's buffer may hold anything before; the inputs' buffers are handed back as they were.
-/
import proofs.«401241_j4398046511431_3_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging buffer and in each scratch buffer, as pieces, where the branch
    is taken — with the proof that on whole memrefs, the inputs' at their contents and the others at anything, the body
    runs to the continuation holding the inputs' as they were and each other buffer with its pieces written. -/
noncomputable def kernelRunA (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) :
    Σ' (L3 : List (View.Piece (Elt F) S1x512x64 .f32)) (LS0 : List (View.Piece (Elt F) S2048x64 .bf16)) (LS1 : List (View.Piece (Elt F) S2048x64 .bf16)), { LS2 : List (View.Piece (Elt F) S2048x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Fr

end
-- ==== Proof.KBRunB.lean ====
/-
  The kernel body at a point where the branch is not taken (the second grid coordinate is not zero).

  There the body stores nothing into the scratch buffers: it loads the query rows of this point out of the first and the
  whole of the other two, as the last point that took the branch left them, and stores the attention result into the
  output's staging buffer (whole). The inputs' buffers and the three scratch buffers are handed back as they were.
-/
import proofs.«401241_j4398046511431_3_alg».proof.Proof.KBRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output's staging buffer, as pieces, where the branch is not taken — with the
    proof that on whole memrefs, the inputs' and the scratch buffers at their contents and the output's at anything, the
    body runs to the continuation holding the inputs' and the scratch buffers as they were and the output's buffer with
    its pieces written. -/
noncomputable def kernelRunB (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : ¬cond0 i)
    (x0 : Vec F S1x2048x1024 .f32) (x1 : Vec F S1024x192 .bf16) (x2 : Vec F S1x192 .f32)
    (xs0 xs1 xs2 : Vec F S2048x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.Kernel.Fr

end
-- ==== Proof.KBFrame.lean ====
/-
  The frame of the whole program: what the output's staging buffer and the three scratch buffers hold after each grid
  point, the proof data of the one pipeline, the body obligation at every point, and the run.

  The sixteen points are four batches of four query tiles. At a batch's first point (the point number divisible by
  four) the body fills the three scratch buffers from that batch's input block and then computes the first tile; at the
  batch's other three points it leaves the scratch buffers as they are and computes its tile from them. So after a point
  the scratch buffers hold what the batch's first point stored, and the output's staging buffer holds the point's tile.
  The region's invariant before a point is: before the first point, the scratch buffers at anything; before any other
  point, the scratch buffers at what the point before left.
-/
import proofs.«401241_j4398046511431_3_alg».proof.Proof.KBRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem coverA_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S1x512x64.Idx) :
    ∃ pc ∈ (kernelRunA c i arg2 harg2 arg3 harg3 arg4 harg4 arg5 harg5 arg6 harg6 arg7 harg7 arg8 harg8 hc x0 x1 x2).1, y ∈ pc.1.set :=
  View.cover_of_tiledL (kernelRunA c i arg2 harg2 arg3 harg3 arg4 harg4 arg5 harg5 arg6 harg6 arg7 harg7 arg8 harg8 hc x0 x1 x2).1 S1x512x64.size (by sl_kernel_rfl) y
theorem scoverA_0 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S2048x64.Idx) :
    ∃ pc ∈ (kernelRunA c i arg2 harg2 arg3 harg3 arg4 harg4 arg5 harg5 arg6 harg6 arg7 harg7 arg8 harg8 hc x0 x1 x2).2.1, y ∈ pc.1.set :=
  View.cover_of_tiledL (kernelRunA c i arg2 harg2 arg3 harg3 arg4 harg4 arg5 harg5 arg6 harg6 arg7 harg7 arg8 harg8 hc x0 x1 x2).2.1 S2048x64.size (by sl_kernel_rfl) y
theorem scoverA_1 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S2048x64.Idx) :
    ∃ pc ∈ (kernelRunA c i arg2 harg2 arg3 harg3 arg4 harg4 arg5 harg5 arg6 harg6 arg7 harg7 arg8 harg8 hc x0 x1 x2).2.2.1, y ∈ pc.1.set :=
  View.cover_of_tiledL (kernelRunA c i arg2 harg2 arg3 harg3 arg4 harg4 arg5 harg5 arg6 harg6 arg7 harg7 arg8 harg8 hc x0 x1 x2).2.2.1 S2048x64.size (by sl_kernel_rfl) y
theorem scoverA_2 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S2048x64.Idx) :
    ∃ pc ∈ (kernelRunA c i arg2 harg2 arg3 harg3 arg4 harg4 arg5 harg5 arg6 harg6 arg7 harg7 arg8 harg8 hc x0 x1 x2).2.2.2.1, y ∈ pc.1.set :=
  View.cover_of_tiledL (kernelRunA c i arg2 harg2 arg3 harg3 arg4 harg4 arg5 harg5 arg6 harg6 arg7 harg7 arg8 harg8 hc x0 x1 x2).2.2.2.1 S2048x64.size (by sl_kernel_rfl) y
theorem coverB_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : ¬cond0 i)
    (x0 : Vec F S1x2048x1024 .f32) (x1 : Vec F S1024x192 .bf16) (x2 : Vec F S1x192 .f32) (xs0 xs1 xs2 : Vec F S2048x64 .bf16) (y : S1x512x64.Idx) :
    ∃ pc ∈ (kernelRunB c i arg2 harg2 arg3 harg3 arg4 harg4 arg5 harg5 arg6 harg6 arg7 harg7 arg8 harg8 hc x0 x1 x2 xs0 xs1 xs2).1, y ∈ pc.1.set :=
  View.cover_of_tiledL (kernelRunB c i arg2 harg2 arg3 harg3 arg4 harg4 arg5 harg5 arg6 harg6 arg7 harg7 arg8 harg8 hc x0 x1 x2 xs0 xs1 xs2).1 S1x512x64.size (by sl_kernel_rfl) y

/-- What the branch-taken case leaves in the output's staging buffer: its pieces read back. -/
def outA_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S1x512x64 .f32 :=
  VO3.read (Elt F) (VO3.writes (Elt F) VO3.junk (kernelRunA c i arg2 harg2 arg3 harg3 arg4 harg4 arg5 harg5 arg6 harg6 arg7 harg7 arg8 harg8 hc x0 x1 x2).1)
/-- What it leaves in the three scratch buffers. -/
def soutA_0 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S2048x64 .bf16 :=
  VS0.read (Elt F) (VS0.writes (Elt F) VS0.junk (kernelRunA c i arg2 harg2 arg3 harg3 arg4 harg4 arg5 harg5 arg6 harg6 arg7 harg7 arg8 harg8 hc x0 x1 x2).2.1)
def soutA_1 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S2048x64 .bf16 :=
  VS1.read (Elt F) (VS1.writes (Elt F) VS1.junk (kernelRunA c i arg2 harg2 arg3 harg3 arg4 harg4 arg5 harg5 arg6 harg6 arg7 harg7 arg8 harg8 hc x0 x1 x2).2.2.1)
def soutA_2 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S2048x64 .bf16 :=
  VS2.read (Elt F) (VS2.writes (Elt F) VS2.junk (kernelRunA c i arg2 harg2 arg3 harg3 arg4 harg4 arg5 harg5 arg6 harg6 arg7 harg7 arg8 harg8 hc x0 x1 x2).2.2.2.1)
/-- What the other case leaves in the output's staging buffer. -/
def outB_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : ¬cond0 i)
    (x0 : Vec F S1x2048x1024 .f32) (x1 : Vec F S1024x192 .bf16) (x2 : Vec F S1x192 .f32) (xs0 xs1 xs2 : Vec F S2048x64 .bf16) : Vec F S1x512x64 .f32 :=
  VO3.read (Elt F) (VO3.writes (Elt F) VO3.junk (kernelRunB c i arg2 harg2 arg3 harg3 arg4 harg4 arg5 harg5 arg6 harg6 arg7 harg7 arg8 harg8 hc x0 x1 x2 xs0 xs1 xs2).1)

/-! ## What the buffers hold after each point -/

/-- After a point where the branch is taken: the output's tile and the three scratch buffers, all from this point's blocks. -/
def atA (c : Dev nD) (t : Fin cfg0.N) (h0 : t.val % 4 = 0) : Vec F S1x512x64 .f32 × Vec F S2048x64 .bf16 × Vec F S2048x64 .bf16 × Vec F S2048x64 .bf16 :=
  (outA_3 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t),
   soutA_0 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t),
   soutA_1 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t),
   soutA_2 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t))

/-- After a point where it is not: the output's tile from the scratch buffers the point before left, which stay. -/
def atB (c : Dev nD) (t : Fin cfg0.N) (h0 : ¬t.val % 4 = 0) (p : Vec F S1x512x64 .f32 × Vec F S2048x64 .bf16 × Vec F S2048x64 .bf16 × Vec F S2048x64 .bf16) : Vec F S1x512x64 .f32 × Vec F S2048x64 .bf16 × Vec F S2048x64 .bf16 × Vec F S2048x64 .bf16 :=
  (outB_3 c (grid0.coords t) (ms0 t) (hs0 t) (ms1 t) (hs1 t) (ms2 t) (hs2 t) (ms3 t) (hs3 t) scM0 (Memref.isWhole_whole _) scM1 (Memref.isWhole_whole _) scM2 (Memref.isWhole_whole _) (fun h => h0 ((hcond0 t).mp h)) (iblk m c 0 t) (iblk m c 1 t) (iblk m c 2 t) p.2.1 p.2.2.1 p.2.2.2,
   p.2.1, p.2.2.1, p.2.2.2)

/-- The output's staging buffer and the three scratch buffers after the body at position `n`. -/
def outsAt0 (c : Dev nD) : (n : ℕ) → n < cfg0.N → Vec F S1x512x64 .f32 × Vec F S2048x64 .bf16 × Vec F S2048x64 .bf16 × Vec F S2048x64 .bf16
  | 0, hn => atA m c ⟨0, hn⟩ (Nat.zero_mod _)
  | n + 1, hn =>
    if h0 : (n + 1) % 4 = 0 then atA m c ⟨n + 1, hn⟩ h0
    else atB m c ⟨n + 1, hn⟩ h0 (outsAt0 c n (Nat.lt_of_succ_lt hn))

theorem outsAt0_A (c : Dev nD) (t : Fin cfg0.N) (h0 : t.val % 4 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`. -/
def PhiS (c : Dev nD) : (n : ℕ) → n ≤ cfg0.N → sProp 𝕄
  | 0, _ => Pipeline.ΦA spec0 c
  | n + 1, hn => iprop(iprop(owns (c : Thread nD τ) scM0 fullShare ((outsAt0 m c n hn).2.1) ∗ owns (c : Thread nD τ) scM1 fullShare ((outsAt0 m c n hn).2.2.1) ∗ owns (c : Thread nD τ) scM2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt0 m c n hn).2.1) ∗ owns (c : Thread nD τ) scM1 fullShare ((outsAt0 m c n hn).2.2.1) ∗ owns (c : Thread nD τ) scM2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt0 m c (n - 1) (by omega)).2.1) ∗ owns (c : Thread nD τ) scM1 fullShare ((outsAt0 m c (n - 1) (by omega)).2.2.1) ∗ owns (c : Thread nD τ) scM2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t` each
    input's buffer at its block and the output's at its tile; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt0 m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) : (dats m 0 c).leavesExact 0 t = owns (c : Thread nD τ) (ms0 t) fullShare (iblk m c 0 t) := by
  unfold Dat.leavesExact; rw [liveAt 0 t, after0]
theorem leaves_in1 (c : Dev nD) (t : Fin cfg0.N) : (dats m 0 c).leavesExact 1 t = owns (c : Thread nD τ) (ms1 t) fullShare (iblk m c 1 t) := by
  unfold Dat.leavesExact; rw [liveAt 1 t, after1]
theorem leaves_in2 (c : Dev nD) (t : Fin cfg0.N) : (dats m 0 c).leavesExact 2 t = owns (c : Thread nD τ) (ms2 t) fullShare (iblk m c 2 t) := by
  unfold Dat.leavesExact; rw [liveAt 2 t, after2]
theorem leaves_out3 (c : Dev nD) (t : Fin cfg0.N) : (dats m 0 c).leavesExact 3 t = owns (c : Thread nD τ) (ms3 t) fullShare ((outsAt0 m c t.val t.isLt).1) := by
  unfold Dat.leavesExact; rw [liveAt 3 t, after3]

set_option maxHeartbeats 8000000 in
/-- The body at any point: the inputs' memrefs hold their blocks; the point number says which case the point is in; the
    invariant hands the body the scratch buffers (at anything before the first point, else at what the point before
    left) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_out3]
  have hN : t.val < 16 := lt_of_lt_of_eq t.isLt (show cfg0.N = 16 from N_0)
  by_cases h0 : t.val % 4 = 0
  · rw [outsAt0_A m c t h0]
    unfold atA outA_3 soutA_0 soutA_1 soutA_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap
            · iexact HS0
            ipureintro; exact View.read_writes_of_cover _ _ _ _ _ (scoverA_0 _ _ _ _ _ _ _ _ _ _ _ _ _ _ _ _ _ _ _ _)
          isplitl [HS1]
          · unfold owns; iexists _; isplitr
            swap
            · iexact HS1
            ipureintro; exact View.read_writes_of_cover _ _ _ _ _ (scoverA_1 _ _ _ _ _ _ _ _ _ _ _ _ _ _ _ _ _ _ _ _)
          unfold owns; iexists _; isplitr
          swap
          · iexact HS2
          ipureintro; exact View.read_writes_of_cover _ _ _ _ _ (scoverA_2 _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap
      · iexact H3
      ipureintro; exact View.read_writes_of_cover _ _ _ _ _ (coverA_3 _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap
            · iexact HS0
            ipureintro; exact View.read_writes_of_cover _ _ _ _ _ (scoverA_0 _ _ _ _ _ _ _ _ _ _ _ _ _ _ _ _ _ _ _ _)
          isplitl [HS1]
          · unfold owns; iexists _; isplitr
            swap
            · iexact HS1
            ipureintro; exact View.read_writes_of_cover _ _ _ _ _ (scoverA_1 _ _ _ _ _ _ _ _ _ _ _ _ _ _ _ _ _ _ _ _)
          unfold owns; iexists _; isplitr
          swap
          · iexact HS2
          ipureintro; exact View.read_writes_of_cover _ _ _ _ _ (scoverA_2 _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap
      · iexact H3
      ipureintro; exact View.read_writes_of_cover _ _ _ _ _ (coverA_3 _ _ _ _ _ _ _ _ _ _ _ _ _ _ _ _ _ _ _ _)
  · rw [outsAt0_B m c t h0]
    unfold atB outB_3; (try dsimp only)
    have hz : t.val ≠ 0 := fun h => h0 (by rw [h])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRunB c (grid0.coords t) _ _ _ _ _ _ _ _ _ _ _ _ _ _ (fun h => h0 ((hcond0 t).mp h)) (iblk m c 0 t) (iblk m c 1 t) (iblk m c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap
    · iexact H3
    ipureintro; exact View.read_writes_of_cover _ _ _ _ _ (coverB_3 _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch buffers' contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KIKit.lean ====
/-
  The program up to its one region, and what the frame claim needs of a run through it.

  @main is seven host operations (three transposes, the concatenation of the three transposed weights, its change of
  format, the concatenation of the three biases, its reshape) and then the region. `V` is what every device buffer holds
  when the region is entered; no host operation writes an argument, so each argument is there as launched. A window's
  block at a grid point is read off `V`; an input window's staging buffer holds that block at every point. The frame
  claim's post follows from any run that ends with the pipeline's arrays at what the proof data computes and every other
  buffer as the region found it.

  The kernel body branches once, on the second grid coordinate being zero; over the sixteen points that is the
  points divisible by four.
-/
import proofs.«401241_j4398046511431_3_alg».proof.Proof.Gen.KernelIdeal.Launch
import proofs.«401241_j4398046511431_3_alg».proof.Proof.Gen.KernelIdeal.Skeleton
import proofs.«401241_j4398046511431_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the seven host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post gives the frame
    claim's post: the staged input array by the library's reading of an input window's array, the six arrays no window
    stages by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch -/

/-- The condition of the body's one branch, from the grid coordinates. -/
abbrev cond0 (i : grid0.Coords) : Prop := (Scalar.cmpi .ne (Scalar.extui (Scalar.cmpi .eq (BitVec.ofNat 32 (i 1).val) 0#32)) 0#32) = 1#1
/-- It holds at the points divisible by four. -/
theorem hcond0 : ∀ t : Fin cfg0.N, cond0 (grid0.coords t) ↔ t.val % 4 = 0 :=
  (by decide +kernel : ∀ t : Fin grid0.N, cond0 (grid0.coords t) ↔ t.val % 4 = 0)

/-- No window is ever idle. -/
theorem liveAt (w : Fin cfg0.W) : ∀ t : Fin cfg0.N, cfg0.idle w (grid0.coords t) = false := fun _ => rfl

/-! ## The memrefs the body is called with -/

/-- One staging buffer of the output window, through which its contents are stated. -/
abbrev VO3 : View sig .tc .vmem S1x512x64 .f32 := (Memref.whole cc0_stg3_0 : Memref sig .tc .vmem S1x512x64 .f32).view
abbrev ms0 (t : Fin cfg0.N) : Memref sig .tc .vmem S1x2048x1024 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S1024x192 .bf16 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S1x192 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S1x512x64 .f32 := win0_3.stage (cfg0.slots t 3)
abbrev hs3 (t : Fin cfg0.N) : (ms3 t).IsWhole := Facts₀.hstage0_3 ((cfg0.slots t 3).cast Facts₀.nbuf0_3)
/-- The three scratch operands: whole scoped buffers of the kernel's own. -/
abbrev scM0 : Memref sig .tc .vmem S2048x64 .bf16 := Memref.whole cc0_scratch0
abbrev scM1 : Memref sig .tc .vmem S2048x64 .bf16 := Memref.whole cc0_scratch1
abbrev scM2 : Memref sig .tc .vmem S2048x64 .bf16 := Memref.whole cc0_scratch2
abbrev VS0 : View sig .tc .vmem S2048x64 .bf16 := scM0.view
abbrev VS1 : View sig .tc .vmem S2048x64 .bf16 := scM1.view
abbrev VS2 : View sig .tc .vmem S2048x64 .bf16 := scM2.view

/-- The class invariant with the scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Fr

end
-- ==== Proof.KIRunA.lean ====
/-
  The kernel body at a point where the branch is taken (the second grid coordinate is zero).

  There the body loads the input block, the fused weight and the fused bias, stores the three column bands of the
  projection into the three scratch buffers (each whole), then loads the query rows of this point out of the first
  scratch and the whole of the other two, and stores the attention result into the output's staging buffer (whole).
  The scratch buffers and the output's buffer may hold anything before; the inputs' buffers are handed back as they were.
-/
import proofs.«401241_j4398046511431_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging buffer and in each scratch buffer, as pieces, where the branch
    is taken — with the proof that on whole memrefs, the inputs' at their contents and the others at anything, the body
    runs to the continuation holding the inputs' as they were and each other buffer with its pieces written. -/
noncomputable def kernelRunA (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) :
    Σ' (L3 : List (View.Piece (Elt F) S1x512x64 .f32)) (LS0 : List (View.Piece (Elt F) S2048x64 .bf16)) (LS1 : List (View.Piece (Elt F) S2048x64 .bf16)), { LS2 : List (View.Piece (Elt F) S2048x64 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KIRunB.lean ====
/-
  The kernel body at a point where the branch is not taken (the second grid coordinate is not zero).

  There the body stores nothing into the scratch buffers: it loads the query rows of this point out of the first and the
  whole of the other two, as the last point that took the branch left them, and stores the attention result into the
  output's staging buffer (whole). The inputs' buffers and the three scratch buffers are handed back as they were.
-/
import proofs.«401241_j4398046511431_3_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's store leaves in the output's staging buffer, as pieces, where the branch is not taken — with the
    proof that on whole memrefs, the inputs' and the scratch buffers at their contents and the output's at anything, the
    body runs to the continuation holding the inputs' and the scratch buffers as they were and the output's buffer with
    its pieces written. -/
noncomputable def kernelRunB (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : ¬cond0 i)
    (x0 : Vec F S1x2048x1024 .f32) (x1 : Vec F S1024x192 .bf16) (x2 : Vec F S1x192 .f32)
    (xs0 xs1 xs2 : Vec F S2048x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ owns (c : Thread nD τ) arg8 fullShare xs2) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; isplitr; · ipureintro; exact harg8.read_unread _
    iexact HS2

end Cert.KernelIdeal.Fr

end
-- ==== Proof.KIFrame.lean ====
/-
  The frame of the whole program: what the output's staging buffer and the three scratch buffers hold after each grid
  point, the proof data of the one pipeline, the body obligation at every point, and the run.

  The sixteen points are four batches of four query tiles. At a batch's first point (the point number divisible by
  four) the body fills the three scratch buffers from that batch's input block and then computes the first tile; at the
  batch's other three points it leaves the scratch buffers as they are and computes its tile from them. So after a point
  the scratch buffers hold what the batch's first point stored, and the output's staging buffer holds the point's tile.
  The region's invariant before a point is: before the first point, the scratch buffers at anything; before any other
  point, the scratch buffers at what the point before left.
-/
import proofs.«401241_j4398046511431_3_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem coverA_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S1x512x64.Idx) :
    ∃ pc ∈ (kernelRunA c i arg2 harg2 arg3 harg3 arg4 harg4 arg5 harg5 arg6 harg6 arg7 harg7 arg8 harg8 hc x0 x1 x2).1, y ∈ pc.1.set :=
  View.cover_of_tiledL (kernelRunA c i arg2 harg2 arg3 harg3 arg4 harg4 arg5 harg5 arg6 harg6 arg7 harg7 arg8 harg8 hc x0 x1 x2).1 S1x512x64.size (by sl_kernel_rfl) y
theorem scoverA_0 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S2048x64.Idx) :
    ∃ pc ∈ (kernelRunA c i arg2 harg2 arg3 harg3 arg4 harg4 arg5 harg5 arg6 harg6 arg7 harg7 arg8 harg8 hc x0 x1 x2).2.1, y ∈ pc.1.set :=
  View.cover_of_tiledL (kernelRunA c i arg2 harg2 arg3 harg3 arg4 harg4 arg5 harg5 arg6 harg6 arg7 harg7 arg8 harg8 hc x0 x1 x2).2.1 S2048x64.size (by sl_kernel_rfl) y
theorem scoverA_1 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S2048x64.Idx) :
    ∃ pc ∈ (kernelRunA c i arg2 harg2 arg3 harg3 arg4 harg4 arg5 harg5 arg6 harg6 arg7 harg7 arg8 harg8 hc x0 x1 x2).2.2.1, y ∈ pc.1.set :=
  View.cover_of_tiledL (kernelRunA c i arg2 harg2 arg3 harg3 arg4 harg4 arg5 harg5 arg6 harg6 arg7 harg7 arg8 harg8 hc x0 x1 x2).2.2.1 S2048x64.size (by sl_kernel_rfl) y
theorem scoverA_2 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) (y : S2048x64.Idx) :
    ∃ pc ∈ (kernelRunA c i arg2 harg2 arg3 harg3 arg4 harg4 arg5 harg5 arg6 harg6 arg7 harg7 arg8 harg8 hc x0 x1 x2).2.2.2.1, y ∈ pc.1.set :=
  View.cover_of_tiledL (kernelRunA c i arg2 harg2 arg3 harg3 arg4 harg4 arg5 harg5 arg6 harg6 arg7 harg7 arg8 harg8 hc x0 x1 x2).2.2.2.1 S2048x64.size (by sl_kernel_rfl) y
theorem coverB_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : ¬cond0 i)
    (x0 : Vec F S1x2048x1024 .f32) (x1 : Vec F S1024x192 .bf16) (x2 : Vec F S1x192 .f32) (xs0 xs1 xs2 : Vec F S2048x64 .bf16) (y : S1x512x64.Idx) :
    ∃ pc ∈ (kernelRunB c i arg2 harg2 arg3 harg3 arg4 harg4 arg5 harg5 arg6 harg6 arg7 harg7 arg8 harg8 hc x0 x1 x2 xs0 xs1 xs2).1, y ∈ pc.1.set :=
  View.cover_of_tiledL (kernelRunB c i arg2 harg2 arg3 harg3 arg4 harg4 arg5 harg5 arg6 harg6 arg7 harg7 arg8 harg8 hc x0 x1 x2 xs0 xs1 xs2).1 S1x512x64.size (by sl_kernel_rfl) y

/-- What the branch-taken case leaves in the output's staging buffer: its pieces read back. -/
def outA_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S1x512x64 .f32 :=
  VO3.read (Elt F) (VO3.writes (Elt F) VO3.junk (kernelRunA c i arg2 harg2 arg3 harg3 arg4 harg4 arg5 harg5 arg6 harg6 arg7 harg7 arg8 harg8 hc x0 x1 x2).1)
/-- What it leaves in the three scratch buffers. -/
def soutA_0 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S2048x64 .bf16 :=
  VS0.read (Elt F) (VS0.writes (Elt F) VS0.junk (kernelRunA c i arg2 harg2 arg3 harg3 arg4 harg4 arg5 harg5 arg6 harg6 arg7 harg7 arg8 harg8 hc x0 x1 x2).2.1)
def soutA_1 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S2048x64 .bf16 :=
  VS1.read (Elt F) (VS1.writes (Elt F) VS1.junk (kernelRunA c i arg2 harg2 arg3 harg3 arg4 harg4 arg5 harg5 arg6 harg6 arg7 harg7 arg8 harg8 hc x0 x1 x2).2.2.1)
def soutA_2 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : Vec F S2048x64 .bf16 :=
  VS2.read (Elt F) (VS2.writes (Elt F) VS2.junk (kernelRunA c i arg2 harg2 arg3 harg3 arg4 harg4 arg5 harg5 arg6 harg6 arg7 harg7 arg8 harg8 hc x0 x1 x2).2.2.2.1)
/-- What the other case leaves in the output's staging buffer. -/
def outB_3 (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : ¬cond0 i)
    (x0 : Vec F S1x2048x1024 .f32) (x1 : Vec F S1024x192 .bf16) (x2 : Vec F S1x192 .f32) (xs0 xs1 xs2 : Vec F S2048x64 .bf16) : Vec F S1x512x64 .f32 :=
  VO3.read (Elt F) (VO3.writes (Elt F) VO3.junk (kernelRunB c i arg2 harg2 arg3 harg3 arg4 harg4 arg5 harg5 arg6 harg6 arg7 harg7 arg8 harg8 hc x0 x1 x2 xs0 xs1 xs2).1)

/-! ## What the buffers hold after each point -/

/-- After a point where the branch is taken: the output's tile and the three scratch buffers, all from this point's blocks. -/
def atA (c : Dev nD) (t : Fin cfg0.N) (h0 : t.val % 4 = 0) : Vec F S1x512x64 .f32 × Vec F S2048x64 .bf16 × Vec F S2048x64 .bf16 × Vec F S2048x64 .bf16 :=
  (outA_3 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t),
   soutA_0 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t),
   soutA_1 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t),
   soutA_2 c (grid0.coords t) (ms0 t) (hs0 t) (ms1 t) (hs1 t) (ms2 t) (hs2 t) (ms3 t) (hs3 t) scM0 (Memref.isWhole_whole _) scM1 (Memref.isWhole_whole _) scM2 (Memref.isWhole_whole _) ((hcond0 t).mpr h0) (iblk m c 0 t) (iblk m c 1 t) (iblk m c 2 t))

/-- After a point where it is not: the output's tile from the scratch buffers the point before left, which stay. -/
def atB (c : Dev nD) (t : Fin cfg0.N) (h0 : ¬t.val % 4 = 0) (p : Vec F S1x512x64 .f32 × Vec F S2048x64 .bf16 × Vec F S2048x64 .bf16 × Vec F S2048x64 .bf16) : Vec F S1x512x64 .f32 × Vec F S2048x64 .bf16 × Vec F S2048x64 .bf16 × Vec F S2048x64 .bf16 :=
  (outB_3 c (grid0.coords t) (ms0 t) (hs0 t) (ms1 t) (hs1 t) (ms2 t) (hs2 t) (ms3 t) (hs3 t) scM0 (Memref.isWhole_whole _) scM1 (Memref.isWhole_whole _) scM2 (Memref.isWhole_whole _) (fun h => h0 ((hcond0 t).mp h)) (iblk m c 0 t) (iblk m c 1 t) (iblk m c 2 t) p.2.1 p.2.2.1 p.2.2.2,
   p.2.1, p.2.2.1, p.2.2.2)

/-- The output's staging buffer and the three scratch buffers after the body at position `n`. -/
def outsAt0 (c : Dev nD) : (n : ℕ) → n < cfg0.N → Vec F S1x512x64 .f32 × Vec F S2048x64 .bf16 × Vec F S2048x64 .bf16 × Vec F S2048x64 .bf16
  | 0, hn => atA m c ⟨0, hn⟩ (Nat.zero_mod _)
  | n + 1, hn =>
    if h0 : (n + 1) % 4 = 0 then atA m c ⟨n + 1, hn⟩ h0
    else atB m c ⟨n + 1, hn⟩ h0 (outsAt0 c n (Nat.lt_of_succ_lt hn))

theorem outsAt0_A (c : Dev nD) (t : Fin cfg0.N) (h0 : t.val % 4 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = atB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`. -/
def PhiS (c : Dev nD) : (n : ℕ) → n ≤ cfg0.N → sProp 𝕄
  | 0, _ => Pipeline.ΦA spec0 c
  | n + 1, hn => iprop(iprop(owns (c : Thread nD τ) scM0 fullShare ((outsAt0 m c n hn).2.1) ∗ owns (c : Thread nD τ) scM1 fullShare ((outsAt0 m c n hn).2.2.1) ∗ owns (c : Thread nD τ) scM2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt0 m c n hn).2.1) ∗ owns (c : Thread nD τ) scM1 fullShare ((outsAt0 m c n hn).2.2.1) ∗ owns (c : Thread nD τ) scM2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt0 m c (n - 1) (by omega)).2.1) ∗ owns (c : Thread nD τ) scM1 fullShare ((outsAt0 m c (n - 1) (by omega)).2.2.1) ∗ owns (c : Thread nD τ) scM2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t` each
    input's buffer at its block and the output's at its tile; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt0 m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) : (dats m 0 c).leavesExact 0 t = owns (c : Thread nD τ) (ms0 t) fullShare (iblk m c 0 t) := by
  unfold Dat.leavesExact; rw [liveAt 0 t, after0]
theorem leaves_in1 (c : Dev nD) (t : Fin cfg0.N) : (dats m 0 c).leavesExact 1 t = owns (c : Thread nD τ) (ms1 t) fullShare (iblk m c 1 t) := by
  unfold Dat.leavesExact; rw [liveAt 1 t, after1]
theorem leaves_in2 (c : Dev nD) (t : Fin cfg0.N) : (dats m 0 c).leavesExact 2 t = owns (c : Thread nD τ) (ms2 t) fullShare (iblk m c 2 t) := by
  unfold Dat.leavesExact; rw [liveAt 2 t, after2]
theorem leaves_out3 (c : Dev nD) (t : Fin cfg0.N) : (dats m 0 c).leavesExact 3 t = owns (c : Thread nD τ) (ms3 t) fullShare ((outsAt0 m c t.val t.isLt).1) := by
  unfold Dat.leavesExact; rw [liveAt 3 t, after3]

set_option maxHeartbeats 8000000 in
/-- The body at any point: the inputs' memrefs hold their blocks; the point number says which case the point is in; the
    invariant hands the body the scratch buffers (at anything before the first point, else at what the point before
    left) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_out3]
  have hN : t.val < 16 := lt_of_lt_of_eq t.isLt (show cfg0.N = 16 from N_0)
  by_cases h0 : t.val % 4 = 0
  · rw [outsAt0_A m c t h0]
    unfold atA outA_3 soutA_0 soutA_1 soutA_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap
            · iexact HS0
            ipureintro; exact View.read_writes_of_cover _ _ _ _ _ (scoverA_0 _ _ _ _ _ _ _ _ _ _ _ _ _ _ _ _ _ _ _ _)
          isplitl [HS1]
          · unfold owns; iexists _; isplitr
            swap
            · iexact HS1
            ipureintro; exact View.read_writes_of_cover _ _ _ _ _ (scoverA_1 _ _ _ _ _ _ _ _ _ _ _ _ _ _ _ _ _ _ _ _)
          unfold owns; iexists _; isplitr
          swap
          · iexact HS2
          ipureintro; exact View.read_writes_of_cover _ _ _ _ _ (scoverA_2 _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap
      · iexact H3
      ipureintro; exact View.read_writes_of_cover _ _ _ _ _ (coverA_3 _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRunA c (grid0.coords t) _ _ _ _ _ _ _ _ _ _ _ _ _ _ ((hcond0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap
            · iexact HS0
            ipureintro; exact View.read_writes_of_cover _ _ _ _ _ (scoverA_0 _ _ _ _ _ _ _ _ _ _ _ _ _ _ _ _ _ _ _ _)
          isplitl [HS1]
          · unfold owns; iexists _; isplitr
            swap
            · iexact HS1
            ipureintro; exact View.read_writes_of_cover _ _ _ _ _ (scoverA_1 _ _ _ _ _ _ _ _ _ _ _ _ _ _ _ _ _ _ _ _)
          unfold owns; iexists _; isplitr
          swap
          · iexact HS2
          ipureintro; exact View.read_writes_of_cover _ _ _ _ _ (scoverA_2 _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap
      · iexact H3
      ipureintro; exact View.read_writes_of_cover _ _ _ _ _ (coverA_3 _ _ _ _ _ _ _ _ _ _ _ _ _ _ _ _ _ _ _ _)
  · rw [outsAt0_B m c t h0]
    unfold atB outB_3; (try dsimp only)
    have hz : t.val ≠ 0 := fun h => h0 (by rw [h])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRunB c (grid0.coords t) _ _ _ _ _ _ _ _ _ _ _ _ _ _ (fun h => h0 ((hcond0 t).mp h)) (iblk m c 0 t) (iblk m c 1 t) (iblk m c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap
    · iexact H3
    ipureintro; exact View.read_writes_of_cover _ _ _ _ _ (coverB_3 _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch buffers' contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.KIPieces.lean ====
/-
  What the buffers hold after the body, in terms of the body's pure payloads.

  Where the branch is taken, the three scratch buffers end at the three column bands of the projection of the loaded
  blocks, and the output's staging buffer at the attention of the query rows of this point — 512 rows of the first band,
  starting at 512 times the second grid coordinate — against the whole second and third bands. Where it is not taken,
  the output's staging buffer ends at the same attention, of the scratch buffers as the body found them.
-/
import proofs.«401241_j4398046511431_3_alg».proof.Proof.KIFrame
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The query rows of the point with coordinates `i`: 512 rows of a [2048, 64] array, from row 512 · (i 1). -/
def rows (i : grid0.Coords) (q : Vec F S2048x64 .bf16) : Vec F S512x64 .bf16 :=
  View.ld q (Rect.unit (s := S2048x64) (k0_off1 i) S512x64.size (Facts₀.k0_off1_inb i))

set_option maxHeartbeats 2000000 in
theorem soutA_0_eq (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : soutA_0 c i arg2 harg2 arg3 harg3 arg4 harg4 arg5 harg5 arg6 harg6 arg7 harg7 arg8 harg8 hc x0 x1 x2 = k0_pay2 x0 x1 x2 := by
  unfold soutA_0
  rw [View.read_writes_eq_canon _ _ _ (scoverA_0 c i arg2 harg2 arg3 harg3 arg4 harg4 arg5 harg5 arg6 harg6 arg7 harg7 arg8 harg8 hc x0 x1 x2)]
  unfold kernelRunA
  dsimp only
  sl_unfold_words
  rw [View.canon_unit_zero hz2]
  simp only [View.readAt_eq_ld, harg2.read_unread, harg3.read_unread, harg4.read_unread, View.ld_unit_zero (S := S1x2048x1024) hz3, View.ld_unit_zero (S := S1024x192) hz2, View.ld_unit_zero (S := S1x192) hz2]

set_option maxHeartbeats 2000000 in
theorem soutA_1_eq (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : soutA_1 c i arg2 harg2 arg3 harg3 arg4 harg4 arg5 harg5 arg6 harg6 arg7 harg7 arg8 harg8 hc x0 x1 x2 = k0_pay3 x0 x1 x2 := by
  unfold soutA_1
  rw [View.read_writes_eq_canon _ _ _ (scoverA_1 c i arg2 harg2 arg3 harg3 arg4 harg4 arg5 harg5 arg6 harg6 arg7 harg7 arg8 harg8 hc x0 x1 x2)]
  unfold kernelRunA
  dsimp only
  sl_unfold_words
  rw [View.canon_unit_zero hz2]
  simp only [View.readAt_eq_ld, harg2.read_unread, harg3.read_unread, harg4.read_unread, View.ld_unit_zero (S := S1x2048x1024) hz3, View.ld_unit_zero (S := S1024x192) hz2, View.ld_unit_zero (S := S1x192) hz2]

set_option maxHeartbeats 2000000 in
theorem soutA_2_eq (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) : soutA_2 c i arg2 harg2 arg3 harg3 arg4 harg4 arg5 harg5 arg6 harg6 arg7 harg7 arg8 harg8 hc x0 x1 x2 = k0_pay4 x0 x1 x2 := by
  unfold soutA_2
  rw [View.read_writes_eq_canon _ _ _ (scoverA_2 c i arg2 harg2 arg3 harg3 arg4 harg4 arg5 harg5 arg6 harg6 arg7 harg7 arg8 harg8 hc x0 x1 x2)]
  unfold kernelRunA
  dsimp only
  sl_unfold_words
  rw [View.canon_unit_zero hz2]
  simp only [View.readAt_eq_ld, harg2.read_unread, harg3.read_unread, harg4.read_unread, View.ld_unit_zero (S := S1x2048x1024) hz3, View.ld_unit_zero (S := S1024x192) hz2, View.ld_unit_zero (S := S1x192) hz2]

/-- Reading the query rows out of a buffer whose last store was the whole of `w`. -/
theorem rows_of_write (arg6 : Memref sig .tc .vmem S2048x64 .bf16) (i : grid0.Coords) (w : Vec F S2048x64 .bf16) :
    View.readAt (Elt F) arg6.view (Rect.unit (s := S2048x64) (k0_off1 i) S512x64.size (Facts₀.k0_off1_inb i)).toLoadRect
      (arg6.view.writes (Elt F) arg6.view.junk [⟨Rect.unit (s := S2048x64) ![0, 0] S2048x64.size Facts₀.inb_S2048x64_S2048x64_0_0, w⟩]) = rows i w := by
  rw [View.readAt_writes_junk_eq_canon, View.canon_unit_zero hz2]
  rfl

/-- Reading the whole of a buffer whose one store was the whole of `w`. -/
theorem whole_of_write (arg7 : Memref sig .tc .vmem S2048x64 .bf16) (w : Vec F S2048x64 .bf16) :
    arg7.view.readCov [⟨Rect.unit (s := S2048x64) ![0, 0] S2048x64.size Facts₀.inb_S2048x64_S2048x64_0_0, w⟩]
      (Rect.unit (s := S2048x64) ![0, 0] S2048x64.size Facts₀.inb_S2048x64_S2048x64_0_0).toLoadRect = w :=
  View.readCov_unit_zero (S := S2048x64) arg7.view hz2 _ w

set_option maxHeartbeats 4000000 in
theorem outA_3_eq (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : cond0 i)
    (x0 : Vec F S1x2048x1024 .f32) (x1 : Vec F S1024x192 .bf16) (x2 : Vec F S1x192 .f32) :
    outA_3 c i arg2 harg2 arg3 harg3 arg4 harg4 arg5 harg5 arg6 harg6 arg7 harg7 arg8 harg8 hc x0 x1 x2 = k0_pay5 (rows i (k0_pay2 x0 x1 x2)) (k0_pay3 x0 x1 x2) (k0_pay4 x0 x1 x2) := by
  unfold outA_3
  rw [View.read_writes_eq_canon _ _ _ (coverA_3 c i arg2 harg2 arg3 harg3 arg4 harg4 arg5 harg5 arg6 harg6 arg7 harg7 arg8 harg8 hc x0 x1 x2)]
  unfold kernelRunA
  dsimp only
  sl_unfold_words
  rw [View.canon_unit_zero hz3]
  simp only [View.readAt_eq_ld (v := arg2.view), View.readAt_eq_ld (v := arg3.view), View.readAt_eq_ld (v := arg4.view), harg2.read_unread, harg3.read_unread, harg4.read_unread, View.ld_unit_zero (S := S1x2048x1024) hz3, View.ld_unit_zero (S := S1024x192) hz2, View.ld_unit_zero (S := S1x192) hz2]
  refine (congrArg (fun q => k0_pay5 q _ _) (rows_of_write arg6 i (k0_pay2 x0 x1 x2))).trans ?_
  refine (congrArg (fun k => k0_pay5 _ k _) (whole_of_write arg7 (k0_pay3 x0 x1 x2))).trans ?_
  exact congrArg (fun v => k0_pay5 _ _ v) (whole_of_write arg8 (k0_pay4 x0 x1 x2))

set_option maxHeartbeats 4000000 in
theorem outB_3_eq (c : Dev nD) (i : grid0.Coords) (arg2 : Memref sig .tc .vmem S1x2048x1024 .f32) (harg2 : arg2.IsWhole) (arg3 : Memref sig .tc .vmem S1024x192 .bf16) (harg3 : arg3.IsWhole) (arg4 : Memref sig .tc .vmem S1x192 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole) (hc : ¬cond0 i)
    (x0 : Vec F S1x2048x1024 .f32) (x1 : Vec F S1024x192 .bf16) (x2 : Vec F S1x192 .f32) (xs0 xs1 xs2 : Vec F S2048x64 .bf16) :
    outB_3 c i arg2 harg2 arg3 harg3 arg4 harg4 arg5 harg5 arg6 harg6 arg7 harg7 arg8 harg8 hc x0 x1 x2 xs0 xs1 xs2 = k0_pay5 (rows i xs0) xs1 xs2 := by
  unfold outB_3
  rw [View.read_writes_eq_canon _ _ _ (coverB_3 c i arg2 harg2 arg3 harg3 arg4 harg4 arg5 harg5 arg6 harg6 arg7 harg7 arg8 harg8 hc x0 x1 x2 xs0 xs1 xs2)]
  unfold kernelRunB
  dsimp only
  sl_unfold_words
  rw [View.canon_unit_zero hz3]
  simp only [View.readAt_eq_ld, harg6.read_unread, harg7.read_unread, harg8.read_unread, View.ld_unit_zero (S := S2048x64) hz2]
  rfl

/-- Where the query rows start, over the grid. -/
theorem off1_eq : ∀ t : Fin cfg0.N, k0_off1 (grid0.coords t) = ![(t.val % 4) * 512, 0] :=
  (by decide +kernel : ∀ t : Fin grid0.N, k0_off1 (grid0.coords t) = ![(t.val % 4) * 512, 0])

/-- The query rows read at an index. -/
theorem rows_apply (t : Fin cfg0.N) (q : Vec F S2048x64 .bf16) (r : Fin 512) (e : Fin 64) :
    rows (grid0.coords t) q (ValueIdx.ix2 r e) = q (ValueIdx.ix2 ⟨(t.val % 4) * 512 + r.val, by have := r.isLt; omega⟩ e) := by
  unfold rows View.ld
  congr 1
  funext a
  apply Fin.ext
  have h := congrFun (off1_eq t) a
  match a with
  | ⟨0, _⟩ => show k0_off1 (grid0.coords t) 0 + 1 * r.val = (t.val % 4) * 512 + r.val; rw [show k0_off1 (grid0.coords t) 0 = (t.val % 4) * 512 from h]; omega
  | ⟨1, _⟩ => show k0_off1 (grid0.coords t) 1 + 1 * e.val = e.val; rw [show k0_off1 (grid0.coords t) 1 = 0 from h]; omega

end Cert.KernelIdeal.Fr

end
-- ==== Proof.KIBlocks.lean ====
/-
  The blocks of the kernel program's windows, read at an index, and the cover of its output.

  The grid is 4 × 4; point `t` has coordinates `(t / 4, t % 4)`. A block's coordinate on an axis is always the block
  index times the block's size there plus the coordinate inside the block.

  * Window 0 takes batch `t / 4` of the input whole: its block's entry `(0, s, h)` is the input's `(t / 4, s, h)`.
  * Windows 1 and 2 are the whole weight and the whole bias at every point.
  * Window 3 takes rows `(t % 4) · 512 …` of batch `t / 4` of the result; every point writes its block back, and an
    index `(n, r, d)` of the result lies in the block of the point `4 · n + r / 512`. So the sixteen blocks cover the
    result, and when every point writes back its block of one array `G`, the result ends holding `G`.
-/
import proofs.«401241_j4398046511431_3_alg».proof.Proof.KIKit
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-! ## The index maps over the grid -/

/-- There are sixteen points. -/
theorem point_lt : ∀ t : Fin cfg0.N, t.val < 16 := (by decide +kernel : ∀ t : Fin grid0.N, t.val < 16)

/-- Window 0's block index at point `t` is `(t / 4, 0, 0)`. -/
theorem index0 : ∀ t : Fin cfg0.N, win0_0.index t (0 : Fin 3) = t.val / 4 ∧ win0_0.index t (1 : Fin 3) = 0
    ∧ win0_0.index t (2 : Fin 3) = 0 :=
  (by decide +kernel : ∀ t : Fin grid0.N, _)

/-- Window 1's block index is `(0, 0)` at every point. -/
theorem index1 : ∀ t : Fin cfg0.N, win0_1.index t (0 : Fin 2) = 0 ∧ win0_1.index t (1 : Fin 2) = 0 :=
  (by decide +kernel : ∀ t : Fin grid0.N, _)

/-- Window 2's block index is `(0, 0)` at every point. -/
theorem index2 : ∀ t : Fin cfg0.N, win0_2.index t (0 : Fin 2) = 0 ∧ win0_2.index t (1 : Fin 2) = 0 :=
  (by decide +kernel : ∀ t : Fin grid0.N, _)

/-- Window 3's block index at point `t` is `(t / 4, t % 4, 0)`. -/
theorem index3 : ∀ t : Fin cfg0.N, win0_3.index t (0 : Fin 3) = t.val / 4 ∧ win0_3.index t (1 : Fin 3) = t.val % 4
    ∧ win0_3.index t (2 : Fin 3) = 0 :=
  (by decide +kernel : ∀ t : Fin grid0.N, _)

/-! ## The input windows' blocks at an index -/

/-- Window 0's block at point `t`, at `(0, s, h)`: the input at `(t / 4, s, h)`. -/
theorem blk0_apply (c : Dev nD) (t : Fin cfg0.N) (s : Fin 2048) (h : Fin 1024) :
    iblk m c 0 t (ix3 0 s h)
      = (V m c main_arg0 : S4x2048x1024.Idx → Elt F .f32) (ix3 ⟨t.val / 4, by have := point_lt t; omega⟩ s h) := by
  obtain ⟨e0, e1, e2⟩ := index0 t
  show V m c main_arg0 (((cfg0.win 0).blk t).view.emb (ix3 0 s h)) = V m c main_arg0 (ix3 ⟨t.val / 4, _⟩ s h)
  refine congrArg _ ?_
  funext a; apply Fin.ext
  match a with
  | ⟨0, _⟩ => show win0_0.index t (0 : Fin 3) * 1 + 1 * 0 = t.val / 4; omega
  | ⟨1, _⟩ => show win0_0.index t (1 : Fin 3) * 2048 + 1 * s.val = s.val; omega
  | ⟨2, _⟩ => show win0_0.index t (2 : Fin 3) * 1024 + 1 * h.val = h.val; omega

/-- Window 1's block at any point, at `(h, j)`: the weight at `(h, j)`. -/
theorem blk1_apply (c : Dev nD) (t : Fin cfg0.N) (h : Fin 1024) (j : Fin 192) :
    iblk m c 1 t (ix2 h j) = (V m c main_v4 : S1024x192.Idx → Elt F .bf16) (ix2 h j) := by
  obtain ⟨e0, e1⟩ := index1 t
  show V m c main_v4 (((cfg0.win 1).blk t).view.emb (ix2 h j)) = V m c main_v4 (ix2 h j)
  refine congrArg _ ?_
  funext a; apply Fin.ext
  match a with
  | ⟨0, _⟩ => show win0_1.index t (0 : Fin 2) * 1024 + 1 * h.val = h.val; omega
  | ⟨1, _⟩ => show win0_1.index t (1 : Fin 2) * 192 + 1 * j.val = j.val; omega

/-- Window 2's block at any point, at `(0, j)`: the bias at `(0, j)`. -/
theorem blk2_apply (c : Dev nD) (t : Fin cfg0.N) (j : Fin 192) :
    iblk m c 2 t (ix2 0 j) = (V m c main_v6 : S1x192.Idx → Elt F .f32) (ix2 0 j) := by
  obtain ⟨e0, e1⟩ := index2 t
  show V m c main_v6 (((cfg0.win 2).blk t).view.emb (ix2 0 j)) = V m c main_v6 (ix2 0 j)
  refine congrArg _ ?_
  funext a; apply Fin.ext
  match a with
  | ⟨0, _⟩ => show win0_2.index t (0 : Fin 2) * 1 + 1 * 0 = 0; omega
  | ⟨1, _⟩ => show win0_2.index t (1 : Fin 2) * 192 + 1 * j.val = j.val; omega

/-! ## The output window -/

/-- The result's index of entry `(0, r, d)` of point `t`'s block: `(t / 4, (t % 4) · 512 + r, d)`. -/
theorem emb3 (t : Fin cfg0.N) (r : Fin 512) (d : Fin 64) :
    (((cfg0.win 3).blk t).view.emb (ix3 0 r d) : S4x2048x64.Idx)
      = ix3 ⟨t.val / 4, by have := point_lt t; omega⟩
          ⟨(t.val % 4) * 512 + r.val, by have := r.isLt; omega⟩ d := by
  obtain ⟨e0, e1, e2⟩ := index3 t
  funext a; apply Fin.ext
  match a with
  | ⟨0, _⟩ => show win0_3.index t (0 : Fin 3) * 1 + 1 * 0 = t.val / 4; omega
  | ⟨1, _⟩ => show win0_3.index t (1 : Fin 3) * 512 + 1 * r.val = (t.val % 4) * 512 + r.val; omega
  | ⟨2, _⟩ => show win0_3.index t (2 : Fin 3) * 64 + 1 * d.val = d.val; omega

/-- An index of the result is in point `t`'s block iff each coordinate is in the block's range on its axis. -/
theorem mem_blk3 (t : Fin cfg0.N) (i : S4x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v7).slice (win0_3.rect t)).set ↔ _
  rw [View.set_slice_whole, Rect.mem_set_unit]
  exact Iff.rfl

/-- The blocks cover the result: index `(n, r, d)` lies in the block of the point `4 · n + r / 512`, which is written
    back as every point is. -/
theorem covered3 (i : S4x2048x64.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 64 := (i 2).isLt
  have hN : cfg0.N = 16 := by decide +kernel
  obtain ⟨t, ht⟩ : ∃ t : Fin cfg0.N, t.val = 4 * (i 0).val + (i 1).val / 512 :=
    ⟨⟨4 * (i 0).val + (i 1).val / 512, by rw [hN]; omega⟩, rfl⟩
  obtain ⟨e0, e1, e2⟩ := index3 t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1; omega
  | ⟨1, _⟩ =>
    show win0_3.index t (1 : Fin 3) * 512 ≤ (i 1).val ∧ (i 1).val < win0_3.index t (1 : Fin 3) * 512 + 512; omega
  | ⟨2, _⟩ =>
    show win0_3.index t (2 : Fin 3) * 64 ≤ (i 2).val ∧ (i 2).val < win0_3.index t (2 : Fin 3) * 64 + 64; omega

/-- When every point writes back its block of one array `G`, the result ends holding `G`. -/
theorem final_of {c : Dev nD} (dat : Dat τ (Elt F) Unit ℕ (UR sig nD τ) ℕ cfg0 c) (G : S4x2048x64.Idx → Elt F .f32)
    (hfl : ∀ t : Fin cfg0.N, dat.flushed 3 t = ((cfg0.win 3).blk t).view.read (Elt F) G) :
    dat.arrAt 3 cfg0.N = G :=
  dat.arrAt_eq_of_cover 3 G (fun t _ => hfl t) covered3

end Cert.KernelIdeal.Fr

end
-- ==== Proof.LibNary3.lean ====
/-
  A host operation over a literal family of three references: its result with each operand's contents read at the
  operand's own reference.

  The general statement of such an operation's result reads operand `k` at `![x, a, b] k`, under a binder, where the
  reference is no literal. Over a literal family of three the function of the family is the function of the three
  contents, listed in order.
-/
import Idealize.ShloMosaic.Lib.StableHlo.Run

noncomputable section

namespace Cert.LibNary3

open Idealize.ShloMosaic Idealize.ShloMosaic.StableHlo
open Idealize.SL Idealize.SL.Sem

variable {τ : Topo} {sig : RefSig} {Val : EltTy → Type} {x a b y : Ref sig .tc}

/-- The result of an operation over the literal family `![x, a, b]`, at its result buffer: the operation's function at
    the three operands' contents, each at its own reference, in order — `Fin.cons (F ↑x) (Fin.cons (F ↑a) (Fin.cons (F ↑b) _))`
    in place of `fun k => F ↑(![x, a, b] k)`. The two families agree at each of the three indices. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference left out of the rewriting index, for use in one simplification pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.KIHost.lean ====
/-
  What the weight and bias arrays of the kernel hold when its region is entered, read at an index.

  Before the region the program transposes the three `[64, 1024]` weights, lays the three `[1024, 64]` results side
  by side into one `[1024, 192]` array, and changes its format (no change of value over the extended reals); it lays
  the three `[64]` biases end to end into one `[192]` array and recasts it as `[1, 192]`. So column `d`, `64 + d`,
  `128 + d` of row `h` of the weight array is entry `(d, h)` of the first, second, third weight, and entry `d`,
  `64 + d`, `128 + d` of the bias row is entry `d` of the first, second, third bias.
-/
import proofs.«401241_j4398046511431_3_alg».proof.Proof.KIKit
import proofs.«401241_j4398046511431_3_alg».proof.Proof.LibNary3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.HostSide

open Cert.KernelIdeal Cert.KernelIdeal.Gen Cert.KernelIdeal.Fr
open Idealize.ShloMosaic Idealize.ShloMosaic.TcCoe Idealize.ShloMosaic.ValueIdx Idealize.ShloMosaic.StableHlo
open Idealize.SL Idealize.SL.Sem
open Cert.LibNary3

variable (m : (ℓ : Loc nD τ sig) → Buf (Elt Ideal) ℓ) (c : Dev nD)

/-! ## The two arrays as terms over the arguments -/

/-- The weight array at the region's entry: the three transposed weights side by side, in the narrower format. -/
theorem V_v4_eq : (V m c main_v4 : S1024x192.Idx → EReal)
    = truncf (F := Ideal) .bf16 (concatenate S1024x192 1
        [⟨S1024x64, transpose S1024x64 [1, 0] (m ((c : Thread nD τ).loc main_arg1) : S64x1024.Idx → EReal) transposes_S64x1024_S1024x64_1_0⟩,
         ⟨S1024x64, transpose S1024x64 [1, 0] (m ((c : Thread nD τ).loc main_arg3) : S64x1024.Idx → EReal) transposes_S64x1024_S1024x64_1_0⟩,
         ⟨S1024x64, transpose S1024x64 [1, 0] (m ((c : Thread nD τ).loc main_arg5) : S64x1024.Idx → EReal) transposes_S64x1024_S1024x64_1_0⟩]
        concatenates_S1024x64_S1024x64_S1024x64_S1024x192_d1) bitsLt_bf16_f32 := by
  dsimp only [V, hostOps0]
  simp only [after_cons, after_nil]
  repeat (first
    | rw [unary_result] | rw [reshape_result] | rw [nary3_result]
    | (rw [unary_result_ne]; rotate_left; decide)
    | (rw [reshape_result_ne]; rotate_left; decide)
    | (rw [nary_result_ne]; rotate_left; decide))
  rfl

/-- The bias row at the region's entry: the three biases end to end, recast as one row. -/
theorem V_v6_eq : (V m c main_v6 : S1x192.Idx → EReal)
    = shapeCast S1x192 (concatenate S192 0
        [⟨S64, (m ((c : Thread nD τ).loc main_arg2) : S64.Idx → EReal)⟩,
         ⟨S64, (m ((c : Thread nD τ).loc main_arg4) : S64.Idx → EReal)⟩,
         ⟨S64, (m ((c : Thread nD τ).loc main_arg6) : S64.Idx → EReal)⟩]
        concatenates_S64_S64_S64_S192_d0) shapeCasts_S192_S1x192 := by
  dsimp only [V, hostOps0]
  simp only [after_cons, after_nil]
  repeat (first
    | rw [unary_result] | rw [reshape_result] | rw [nary3_result]
    | (rw [unary_result_ne]; rotate_left; decide)
    | (rw [reshape_result_ne]; rotate_left; decide)
    | (rw [nary_result_ne]; rotate_left; decide))
  rfl

/-! ## Three `[1024, 64]` pieces side by side, and three `[64]` pieces end to end, at an index -/

section Pieces
variable {α : Type}

/-- Column `d` of the three pieces side by side is column `d` of the first piece. -/
theorem cat3cols_0 (A B C : S1024x64.Idx → α) (hc : Shape.Concatenates [S1024x64, S1024x64, S1024x64] S1024x192 1)
    (h : Fin 1024) (d : Fin 64) :
    concatenate S1024x192 1 [⟨S1024x64, A⟩, ⟨S1024x64, B⟩, ⟨S1024x64, C⟩] hc (ix2 h ⟨d.val, by have := d.isLt; omega⟩) = A (ix2 h d) :=
  concatenate_apply_piece 1 [⟨S1024x64, A⟩, ⟨S1024x64, B⟩, ⟨S1024x64, C⟩] hc (ix2 h ⟨d.val, by have := d.isLt; omega⟩) 0 (by simp) S1024x64 A rfl rfl 0 rfl (ix2 h d)
    (fun b hb => by match b with | ⟨0, _⟩ => rfl | ⟨1, _⟩ => exact absurd rfl hb)
    (by show 0 + d.val = d.val; omega)

/-- Column `64 + d` is column `d` of the second piece. -/
theorem cat3cols_1 (A B C : S1024x64.Idx → α) (hc : Shape.Concatenates [S1024x64, S1024x64, S1024x64] S1024x192 1)
    (h : Fin 1024) (d : Fin 64) :
    concatenate S1024x192 1 [⟨S1024x64, A⟩, ⟨S1024x64, B⟩, ⟨S1024x64, C⟩] hc (ix2 h ⟨64 + d.val, by have := d.isLt; omega⟩) = B (ix2 h d) :=
  concatenate_apply_piece 1 [⟨S1024x64, A⟩, ⟨S1024x64, B⟩, ⟨S1024x64, C⟩] hc (ix2 h ⟨64 + d.val, by have := d.isLt; omega⟩) 1 (by simp) S1024x64 B rfl rfl 64 rfl (ix2 h d)
    (fun b hb => by match b with | ⟨0, _⟩ => rfl | ⟨1, _⟩ => exact absurd rfl hb)
    (by show 64 + d.val = 64 + d.val; rfl)

/-- Column `128 + d` is column `d` of the third piece. -/
theorem cat3cols_2 (A B C : S1024x64.Idx → α) (hc : Shape.Concatenates [S1024x64, S1024x64, S1024x64] S1024x192 1)
    (h : Fin 1024) (d : Fin 64) :
    concatenate S1024x192 1 [⟨S1024x64, A⟩, ⟨S1024x64, B⟩, ⟨S1024x64, C⟩] hc (ix2 h ⟨128 + d.val, by have := d.isLt; omega⟩) = C (ix2 h d) :=
  concatenate_apply_piece 1 [⟨S1024x64, A⟩, ⟨S1024x64, B⟩, ⟨S1024x64, C⟩] hc (ix2 h ⟨128 + d.val, by have := d.isLt; omega⟩) 2 (by simp) S1024x64 C rfl rfl 128 rfl (ix2 h d)
    (fun b hb => by match b with | ⟨0, _⟩ => rfl | ⟨1, _⟩ => exact absurd rfl hb)
    (by show 128 + d.val = 128 + d.val; rfl)

/-- Entry `d` of the three pieces end to end is entry `d` of the first piece. -/
theorem cat3_0 (A B C : S64.Idx → α) (hc : Shape.Concatenates [S64, S64, S64] S192 0) (d : Fin 64) :
    concatenate S192 0 [⟨S64, A⟩, ⟨S64, B⟩, ⟨S64, C⟩] hc (ix1 ⟨d.val, by have := d.isLt; omega⟩) = A (ix1 d) :=
  concatenate_apply_piece 0 [⟨S64, A⟩, ⟨S64, B⟩, ⟨S64, C⟩] hc (ix1 ⟨d.val, by have := d.isLt; omega⟩) 0 (by simp) S64 A rfl rfl 0 rfl (ix1 d)
    (fun b hb => by match b with | ⟨0, _⟩ => exact absurd rfl hb)
    (by show 0 + d.val = d.val; omega)

/-- Entry `64 + d` is entry `d` of the second piece. -/
theorem cat3_1 (A B C : S64.Idx → α) (hc : Shape.Concatenates [S64, S64, S64] S192 0) (d : Fin 64) :
    concatenate S192 0 [⟨S64, A⟩, ⟨S64, B⟩, ⟨S64, C⟩] hc (ix1 ⟨64 + d.val, by have := d.isLt; omega⟩) = B (ix1 d) :=
  concatenate_apply_piece 0 [⟨S64, A⟩, ⟨S64, B⟩, ⟨S64, C⟩] hc (ix1 ⟨64 + d.val, by have := d.isLt; omega⟩) 1 (by simp) S64 B rfl rfl 64 rfl (ix1 d)
    (fun b hb => by match b with | ⟨0, _⟩ => exact absurd rfl hb)
    (by show 64 + d.val = 64 + d.val; rfl)

/-- Entry `128 + d` is entry `d` of the third piece. -/
theorem cat3_2 (A B C : S64.Idx → α) (hc : Shape.Concatenates [S64, S64, S64] S192 0) (d : Fin 64) :
    concatenate S192 0 [⟨S64, A⟩, ⟨S64, B⟩, ⟨S64, C⟩] hc (ix1 ⟨128 + d.val, by have := d.isLt; omega⟩) = C (ix1 d) :=
  concatenate_apply_piece 0 [⟨S64, A⟩, ⟨S64, B⟩, ⟨S64, C⟩] hc (ix1 ⟨128 + d.val, by have := d.isLt; omega⟩) 2 (by simp) S64 C rfl rfl 128 rfl (ix1 d)
    (fun b hb => by match b with | ⟨0, _⟩ => exact absurd rfl hb)
    (by show 128 + d.val = 128 + d.val; rfl)

end Pieces

/-! ## The weight array at an index -/

/-- Over the extended reals the change to the narrower format leaves every entry as it is. -/
theorem truncf_bf16_apply {s : Shape} (X : FVec Ideal s .f32) (hlt : FTy.bits .bf16 < FTy.bits .f32) (i : s.Idx) :
    truncf (F := Ideal) .bf16 X hlt i = X i := rfl

/-- Column `d` of row `h` is entry `(d, h)` of the first weight. -/
theorem wall_q (h : Fin 1024) (d : Fin 64) :
    (V m c main_v4 : S1024x192.Idx → EReal) (ix2 h ⟨d.val, by have := d.isLt; omega⟩)
      = (m ((c : Thread nD τ).loc main_arg1) : S64x1024.Idx → EReal) (ix2 d h) := by
  rw [V_v4_eq, truncf_bf16_apply, cat3cols_0]
  exact transpose_ix2_apply _ _ h d

/-- Column `64 + d` of row `h` is entry `(d, h)` of the second weight. -/
theorem wall_k (h : Fin 1024) (d : Fin 64) :
    (V m c main_v4 : S1024x192.Idx → EReal) (ix2 h ⟨64 + d.val, by have := d.isLt; omega⟩)
      = (m ((c : Thread nD τ).loc main_arg3) : S64x1024.Idx → EReal) (ix2 d h) := by
  rw [V_v4_eq, truncf_bf16_apply, cat3cols_1]
  exact transpose_ix2_apply _ _ h d

/-- Column `128 + d` of row `h` is entry `(d, h)` of the third weight. -/
theorem wall_v (h : Fin 1024) (d : Fin 64) :
    (V m c main_v4 : S1024x192.Idx → EReal) (ix2 h ⟨128 + d.val, by have := d.isLt; omega⟩)
      = (m ((c : Thread nD τ).loc main_arg5) : S64x1024.Idx → EReal) (ix2 d h) := by
  rw [V_v4_eq, truncf_bf16_apply, cat3cols_2]
  exact transpose_ix2_apply _ _ h d

/-! ## The bias row at an index -/

/-- Entry `d` of the bias row is entry `d` of the first bias. -/
theorem ball_q (d : Fin 64) :
    (V m c main_v6 : S1x192.Idx → EReal) (ix2 0 ⟨d.val, by have := d.isLt; omega⟩)
      = (m ((c : Thread nD τ).loc main_arg2) : S64.Idx → EReal) (ix1 d) := by
  rw [V_v6_eq, shapeCast_a_1a_apply]
  exact cat3_0 _ _ _ _ d

/-- Entry `64 + d` of the bias row is entry `d` of the second bias. -/
theorem ball_k (d : Fin 64) :
    (V m c main_v6 : S1x192.Idx → EReal) (ix2 0 ⟨64 + d.val, by have := d.isLt; omega⟩)
      = (m ((c : Thread nD τ).loc main_arg4) : S64.Idx → EReal) (ix1 d) := by
  rw [V_v6_eq, shapeCast_a_1a_apply]
  exact cat3_1 _ _ _ _ d

/-- Entry `128 + d` of the bias row is entry `d` of the third bias. -/
theorem ball_v (d : Fin 64) :
    (V m c main_v6 : S1x192.Idx → EReal) (ix2 0 ⟨128 + d.val, by have := d.isLt; omega⟩)
      = (m ((c : Thread nD τ).loc main_arg6) : S64.Idx → EReal) (ix1 d) := by
  rw [V_v6_eq, shapeCast_a_1a_apply]
  exact cat3_2 _ _ _ _ d

end Cert.KernelIdeal.HostSide

end
-- ==== Proof.Spec.lean ====
/-
  Single-head attention over the extended reals, as one function of the argument arrays.

  For a batch `n`, a query row `s` and a head column `d`:
  * a projection is `proj x W b n s d = (∑ h, x[n, s, h] · W[d, h]) + b[d]`;
  * the logit of query row `s` against key row `j` is `(∑ e, q[e] · k[e]) · c` for a scale `c`;
  * a row's maximum is the fold of `max` from `⊥` over its logits;
  * the result is the exponentials of the logits less their maximum, weighted against the value rows and normalised
    by their sum. The two programs normalise at different places: one divides the weighted sum by the row's sum
    (`kerRow`), the other divides every weight first (`refRow`, which also takes the maximum once more against `⊥`
    and starts its sum from `0`).
-/
import Idealize.ShloMosaic.PureOps.Ideal
import Idealize.ShloMosaic.Lib.ValueIdx

noncomputable section

namespace Cert.Attn

open Idealize.ShloMosaic Idealize.ShloMosaic.ValueIdx
open scoped BigOperators

/-- One projection of the input: row `s` of batch `n` against row `d` of the weight, plus the bias. -/
def proj (x : (⟨3, ![4, 2048, 1024]⟩ : Shape).Idx → EReal) (W : (⟨2, ![64, 1024]⟩ : Shape).Idx → EReal)
    (b : (⟨1, ![64]⟩ : Shape).Idx → EReal) (n : Fin 4) (s : Fin 2048) (d : Fin 64) : EReal :=
  (∑ h : Fin 1024, x (ix3 n s h) * W (ix2 d h)) + b (ix1 d)

/-- The scaled inner product of a query row and a key row. -/
def logit (c : EReal) (q k : Fin 64 → EReal) : EReal := (∑ e : Fin 64, q e * k e) * c

/-- A row's maximum, from `⊥`. -/
def rowMax {K : ℕ} (s : Fin K → EReal) : EReal := (Finset.univ : Finset (Fin K)).fold max ⊥ s

/-- Normalised after the weighted sum. -/
def kerRow {K : ℕ} (s v : Fin K → EReal) : EReal :=
  Ideal.div (∑ k, Ideal.exp (s k - rowMax s) * v k) (∑ k, Ideal.exp (s k - rowMax s))

/-- Normalised weight by weight. -/
def refRow {K : ℕ} (s v : Fin K → EReal) : EReal :=
  ∑ k, Ideal.div (Ideal.exp (s k - max ⊥ (rowMax s))) (0 + ∑ k', Ideal.exp (s k' - max ⊥ (rowMax s))) * v k

/-- The scale as a literal: the word of `0.125`. -/
def scaleK : EReal := Ideal.ofBits .f32 0x3E000000#32

/-- The scale as `1 / √64`, over the words of `1` and `64`. -/
def scaleR : EReal := Ideal.div (Ideal.ofBits .f32 0x3F800000#32) (Ideal.sqrt (Ideal.ofBits .f32 0x42800000#32))

section
variable (x : (⟨3, ![4, 2048, 1024]⟩ : Shape).Idx → EReal)
  (Wq : (⟨2, ![64, 1024]⟩ : Shape).Idx → EReal) (bq : (⟨1, ![64]⟩ : Shape).Idx → EReal)
  (Wk : (⟨2, ![64, 1024]⟩ : Shape).Idx → EReal) (bk : (⟨1, ![64]⟩ : Shape).Idx → EReal)
  (Wv : (⟨2, ![64, 1024]⟩ : Shape).Idx → EReal) (bv : (⟨1, ![64]⟩ : Shape).Idx → EReal)

/-- The result with the literal scale, normalised after the weighted sum. -/
def kerOut (n : Fin 4) (s : Fin 2048) (d : Fin 64) : EReal :=
  kerRow (fun j : Fin 2048 => logit scaleK (proj x Wq bq n s) (proj x Wk bk n j)) (fun j => proj x Wv bv n j d)

/-- The result with the computed scale, normalised weight by weight. -/
def refOut (n : Fin 4) (s : Fin 2048) (d : Fin 64) : EReal :=
  refRow (fun j : Fin 2048 => logit scaleR (proj x Wq bq n s) (proj x Wk bk n j)) (fun j => proj x Wv bv n j d)

end

end Cert.Attn

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KerPay.lean ====
/-
  The kernel's arithmetic read at an index, over the extended reals.

  * The fused projection `[2048, 1024] × [1024, 192] + bias` at `(s, j)` is `(∑ h, x (0, s, h) · W (h, j)) + b (0, j)`,
    and its three stored thirds are its columns `d`, `64 + d`, `128 + d`.
  * The attention block at `(0, r, d)` is the row operation `kerRow` of the scaled logits of query row `r` against
    every key row, weighted against column `d` of the value rows: a product against a right operand stored row by row
    is `∑ e, q (r, e) · k (j, e)`; a row's maximum is the fold of `max` from `⊥`; a row's sum is a sum over `Fin 2048`;
    an `[n]` array kept as a column `[n, 1]` and spread along the rows reads its entry `r` at every column of row `r`.
-/
import proofs.«401241_j4398046511431_3_alg».proof.Proof.Gen.KernelIdeal.Skeleton
import proofs.«401241_j4398046511431_3_alg».proof.Proof.Spec
import proofs.«401241_j4398046511431_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The projection's dimension record is the plain one. -/
theorem dot1_plain : dot_S2048x1024_S1024x192_S2048x192_1_0_0_1_n_n = DotDims.plain 2048 1024 192 := rfl

/-- The fused projection at `(s, j)`: row `s` of the batch's block against column `j` of the weight, plus the bias. -/
theorem pay1_apply (v26 : Vec Ideal S1x2048x1024 .f32) (v29 : Vec Ideal S1024x192 .bf16) (v32 : Vec Ideal S1x192 .f32)
    (s : Fin 2048) (j : Fin 192) :
    k0_pay1 (F := Ideal) v26 v29 v32 (ix2 s j)
      = (∑ h : Fin 1024, v26 (ix3 0 s h) * v29 (ix2 h j)) + v32 (ix2 0 j) := by
  unfold k0_pay1
  rw [shapeCast_self, shapeCast_self]
  refine (addf_apply _ _ _).trans (congrArg₂ (· + ·) ?_ ?_)
  · exact LibRowOps.prod_apply _ dot1_plain
      (truncf .bf16 (shapeCast S2048x1024 v26 shapeCasts_S1x2048x1024_S2048x1024) bitsLt_bf16_f32) v29 s j
      (fun h => v26 (ix3 0 s h)) (fun h => shapeCast_1ab_ab_apply v26 shapeCasts_S1x2048x1024_S2048x1024 s h)
  · exact broadcastTo_1b_ab_apply v32 broadcasts_S1x192_S2048x192 s j

/-- The first stored third: columns `0 … 63` of the fused projection. -/
theorem pay2_apply (v26 : Vec Ideal S1x2048x1024 .f32) (v29 : Vec Ideal S1024x192 .bf16) (v32 : Vec Ideal S1x192 .f32)
    (s : Fin 2048) (d : Fin 64) :
    k0_pay2 (F := Ideal) v26 v29 v32 (ix2 s d)
      = k0_pay1 (F := Ideal) v26 v29 v32 (ix2 s ⟨d.val, by omega⟩) := by
  unfold k0_pay2
  rw [shapeCast_self]
  exact slice2_axis1_apply 0 (k0_pay1 (F := Ideal) v26 v29 v32) slices_S2048x192_o0_0_S2048x64 s d ⟨d.val, by omega⟩
    (Nat.zero_add _).symm

/-- The second stored third: columns `64 … 127`. -/
theorem pay3_apply (v26 : Vec Ideal S1x2048x1024 .f32) (v29 : Vec Ideal S1024x192 .bf16) (v32 : Vec Ideal S1x192 .f32)
    (s : Fin 2048) (d : Fin 64) :
    k0_pay3 (F := Ideal) v26 v29 v32 (ix2 s d)
      = k0_pay1 (F := Ideal) v26 v29 v32 (ix2 s ⟨64 + d.val, by omega⟩) := by
  unfold k0_pay3
  rw [shapeCast_self]
  exact slice2_axis1_apply 64 (k0_pay1 (F := Ideal) v26 v29 v32) slices_S2048x192_o0_64_S2048x64 s d ⟨64 + d.val, by omega⟩ rfl

/-- The last stored third: columns `128 … 191`. -/
theorem pay4_apply (v26 : Vec Ideal S1x2048x1024 .f32) (v29 : Vec Ideal S1024x192 .bf16) (v32 : Vec Ideal S1x192 .f32)
    (s : Fin 2048) (d : Fin 64) :
    k0_pay4 (F := Ideal) v26 v29 v32 (ix2 s d)
      = k0_pay1 (F := Ideal) v26 v29 v32 (ix2 s ⟨128 + d.val, by omega⟩) := by
  unfold k0_pay4
  rw [shapeCast_self]
  exact slice2_axis1_apply 128 (k0_pay1 (F := Ideal) v26 v29 v32) slices_S2048x192_o0_128_S2048x64 s d ⟨128 + d.val, by omega⟩ rfl

/-! ## A product against a right operand stored row by row: `[M, K] × [N, K]`, as a sum over `Fin K` -/

section TransposedRhs
variable {M K N : ℕ}

theorem trhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem trhs_lhs_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

theorem trhs_rhs_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction at `(p, j)`: the sum over `k : Fin K` of `l (p, k) * r (j, k)`. -/
theorem trhs_sum (l : (⟨2, ![M, K]⟩ : Shape).Idx → EReal) (r : (⟨2, ![N, K]⟩ : Shape).Idx → EReal) (p : Fin M) (j : Fin N) :
    ∑ k : (DotDims.transposedRhs M K N).contr.Idx,
        l ((DotDims.transposedRhs M K N).lhsIdx (ix2 p j) k) * r ((DotDims.transposedRhs M K N).rhsIdx (ix2 p j) k)
      = ∑ k : Fin K, l (ix2 p k) * r (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact trhs_lhs_0 _ _
      | ⟨1, _⟩ => exact (trhs_lhs_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact trhs_rhs_0 _ _
      | ⟨1, _⟩ => exact (trhs_rhs_1 _ _).trans hk)
  rw [el, er]

/-- The product into the zero accumulator, for any dimension record that is this one. -/
theorem matmul_trhs_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (j : Fin N) :
    matmul d prec l r (constant ⟨2, ![M, N]⟩ .f32 0x00000000#32) (ix2 p j) = ∑ k : Fin K, l (ix2 p k) * r (ix2 j k) := by
  subst hd
  simp only [matmul]
  rw [Ideal.matmul_constant_zero_apply]
  exact trhs_sum l r p j

end TransposedRhs

/-! ## A column kept beside its rows: `[a] → [a, 1] → [a, b]` -/

section Column
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: entry `p` of the `[a]` array at every column of row `p`. -/
theorem colBcast_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Column

/-! ## A row's maximum and a row's sum -/

/-- The word the maximum starts from is `-∞`. -/
theorem negInf_f32 : Ideal.ofBits .f32 0xFF800000#32 = ⊥ := by simp [Ideal.ofBits, Ideal.ieee]

section Reduce
variable {n m : ℕ}

/-- The reduced index `r` with column `k` put back is `(r, k)`. -/
theorem lift_row (h : (⟨2, ![n, m]⟩ : Shape).Reduces [1] ⟨1, ![n]⟩) (r : Fin n) (k : Fin m) :
    h.lift (ix1 r) k = ix2 r k :=
  funext fun a => Fin.ext (by
    match a with
    | ⟨0, _⟩ => rfl
    | ⟨1, _⟩ => rfl)

/-- The maximum over the columns, at row `r`: the fold of `max` from `⊥` over the row. -/
theorem rowMax_apply (src : FVec Ideal ⟨2, ![n, m]⟩ .f32) (h : (⟨2, ![n, m]⟩ : Shape).Reduces [1] ⟨1, ![n]⟩)
    (hφ : FKind.Formats .f32) (hacc : (0xFF800000#32 : BitVec 32) = FKind.maximumf.neutral .f32 hφ) (r : Fin n) :
    multiReduction .maximumf [1] ⟨1, ![n]⟩ src 0xFF800000#32 h hφ hacc (ix1 r)
      = (Finset.univ : Finset (Fin m)).fold max ⊥ (fun k => src (ix2 r k)) := by
  refine (Ideal.multiReduction_maximumf_single src _ h hφ hacc (ix1 r)).trans ?_
  show (Finset.univ : Finset (Fin m)).fold max (Ideal.ofBits .f32 0xFF800000#32) (fun k => src (h.lift (ix1 r) k)) = _
  rw [negInf_f32]
  exact congrArg (fun f => (Finset.univ : Finset (Fin m)).fold max ⊥ f) (funext fun k => congrArg src (lift_row h r k))

/-- The sum over the columns, at row `r`. -/
theorem rowSum_apply (src : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (r : Fin n) :
    multiReduction .add [1] ⟨1, ![n]⟩ src 0x00000000#32 h hφ hacc (ix1 r) = ∑ k : Fin m, src (ix2 r k) := by
  refine (Ideal.multiReduction_add_single src _ h hφ hacc (ix1 r)).trans ?_
  show ∑ k : Fin m, src (h.lift (ix1 r) k) = _
  exact Finset.sum_congr rfl fun k _ => congrArg src (lift_row h r k)

end Reduce

/-! ## The attention block at an index -/

/-- The logits' dimension record contracts the last axis of both operands. -/
theorem dot2_trhs : dot_S512x64_S2048x64_S512x2048_1_1_0_0_n_n = DotDims.transposedRhs 512 64 2048 := rfl

/-- The weighted sum's dimension record is the plain one. -/
theorem dot3_plain : dot_S512x2048_S2048x64_S512x64_1_0_0_1_n_n = DotDims.plain 512 2048 64 := rfl

/-- The scaled logits of a block of query rows against every key row. -/
def logits (v6 : FVec Ideal S512x64 .bf16) (v7 : FVec Ideal S2048x64 .bf16) : FVec Ideal S512x2048 .f32 :=
  mulf (matmul dot_S512x64_S2048x64_S512x2048_1_1_0_0_n_n none v6 v7 (constant S512x2048 .f32 0x00000000#32))
    (broadcast S512x2048 (Scalar.ofBits .f32 0x3E000000#32))

/-- At `(r, k)`: the inner product of query row `r` and key row `k`, times the literal scale. -/
theorem logits_apply (v6 : FVec Ideal S512x64 .bf16) (v7 : FVec Ideal S2048x64 .bf16) (r : Fin 512) (k : Fin 2048) :
    logits v6 v7 (ix2 r k)
      = Cert.Attn.logit Cert.Attn.scaleK (fun e => v6 (ix2 r e)) (fun e => v7 (ix2 k e)) := by
  unfold logits Cert.Attn.logit Cert.Attn.scaleK
  refine (mulf_apply _ _ _).trans (congrArg₂ (· * ·) ?_ rfl)
  exact matmul_trhs_apply _ dot2_trhs none v6 v7 r k

/-- The exponentials of a block of logits less each row's maximum. -/
def expw (L : FVec Ideal S512x2048 .f32) : FVec Ideal S512x2048 .f32 :=
  exp (subf L (broadcastTo S512x2048
    (shapeCast S512x1 (multiReduction .maximumf [1] S512 L 0xFF800000#32 reduces_S512x2048_S512 (.inl rfl) rfl)
      shapeCasts_S512_S512x1) broadcasts_S512x1_S512x2048))

theorem expw_apply (L : FVec Ideal S512x2048 .f32) (r : Fin 512) (k : Fin 2048) :
    expw L (ix2 r k) = Ideal.exp (L (ix2 r k) - Cert.Attn.rowMax (fun j : Fin 2048 => L (ix2 r j))) := by
  unfold expw Cert.Attn.rowMax
  refine congrArg Ideal.exp (congrArg (L (ix2 r k) - ·) ?_)
  refine (colBcast_apply _ shapeCasts_S512_S512x1 broadcasts_S512x1_S512x2048 r k).trans ?_
  exact rowMax_apply L reduces_S512x2048_S512 _ _ r

/-- What the kernel does with a block of logits: exponentials, their row sums, the weighted sum of the value rows,
    the division, and a leading unit axis. -/
def attnOf (L : FVec Ideal S512x2048 .f32) (v8 : FVec Ideal S2048x64 .bf16) : FVec Ideal S1x512x64 .f32 :=
  shapeCast S1x512x64
    (divf
      (matmul dot_S512x2048_S2048x64_S512x64_1_0_0_1_n_n none (truncf .bf16 (expw L) bitsLt_bf16_f32) v8
        (constant S512x64 .f32 0x00000000#32))
      (broadcastTo S512x64
        (shapeCast S512x1 (multiReduction .add [1] S512 (expw L) 0x00000000#32 reduces_S512x2048_S512 (.inl rfl) rfl)
          shapeCasts_S512_S512x1) broadcasts_S512x1_S512x64))
    shapeCasts_S512x64_S1x512x64

theorem pay5_eq (v6 : Vec Ideal S512x64 .bf16) (v7 v8 : Vec Ideal S2048x64 .bf16) :
    k0_pay5 (F := Ideal) v6 v7 v8 = attnOf (logits v6 v7) v8 := rfl

theorem attnOf_apply (L : FVec Ideal S512x2048 .f32) (v8 : FVec Ideal S2048x64 .bf16) (r : Fin 512) (d : Fin 64) :
    attnOf L v8 (ix3 0 r d) = Cert.Attn.kerRow (fun j : Fin 2048 => L (ix2 r j)) (fun j => v8 (ix2 j d)) := by
  unfold attnOf Cert.Attn.kerRow
  refine (shapeCast_ab_1ab_apply _ shapeCasts_S512x64_S1x512x64 0 r d).trans ?_
  refine (divf_apply _ _ _).trans (congrArg₂ Ideal.div ?_ ?_)
  · exact LibRowOps.prod_apply _ dot3_plain (truncf .bf16 (expw L) bitsLt_bf16_f32) v8 r d
      (fun k => Ideal.exp (L (ix2 r k) - Cert.Attn.rowMax (fun j : Fin 2048 => L (ix2 r j)))) (fun k => expw_apply L r k)
  · refine (colBcast_apply _ shapeCasts_S512_S512x1 broadcasts_S512x1_S512x64 r d).trans ?_
    refine (rowSum_apply (expw L) reduces_S512x2048_S512 _ _ r).trans ?_
    exact Finset.sum_congr rfl fun k _ => expw_apply L r k

/-- The attention block at `(0, r, d)`: the normalised weighted sum of column `d` of the value rows, over the
    logits of query row `r` against every key row. -/
theorem pay5_apply (v6 : Vec Ideal S512x64 .bf16) (v7 v8 : Vec Ideal S2048x64 .bf16) (r : Fin 512) (d : Fin 64) :
    k0_pay5 (F := Ideal) v6 v7 v8 (ix3 0 r d)
      = Cert.Attn.kerRow
          (fun j : Fin 2048 => Cert.Attn.logit Cert.Attn.scaleK (fun e => v6 (ix2 r e)) (fun e => v7 (ix2 j e)))
          (fun j => v8 (ix2 j d)) := by
  rw [pay5_eq]
  refine (attnOf_apply (logits v6 v7) v8 r d).trans ?_
  exact congrArg (fun s => Cert.Attn.kerRow s (fun j => v8 (ix2 j d))) (funext fun j => logits_apply v6 v7 r j)

end Cert.KernelIdeal.Pay

end
-- ==== Proof.KIValue.lean ====
/-
  The kernel program's result, as one function of its seven arguments, over the extended reals.

  The sixteen points are four batches of four query tiles. The three bands a batch's first point stores are the three
  projections of that batch (row `s`, column `d`: `(∑ h, x (n, s, h) · W (d, h)) + b d`), because the fused weight's
  columns `d`, `64 + d`, `128 + d` are rows `d` of the three weights and likewise for the bias. By induction on the
  point, after point `n` the scratch buffers hold the bands of batch `n / 4` and the output's staging buffer holds tile
  `n % 4` of that batch: the attention of query rows `512 · (n % 4) …` against every key and value row. Every point
  writes its tile back to rows `512 · (n % 4) …` of batch `n / 4`, and the tiles cover the result.
-/
import proofs.«401241_j4398046511431_3_alg».proof.Proof.KIFrame
import proofs.«401241_j4398046511431_3_alg».proof.Proof.KIPieces
import proofs.«401241_j4398046511431_3_alg».proof.Proof.KIBlocks
import proofs.«401241_j4398046511431_3_alg».proof.Proof.KIHost
import proofs.«401241_j4398046511431_3_alg».proof.Proof.KerPay
import proofs.«401241_j4398046511431_3_alg».proof.Proof.Spec

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL Idealize.SL.Sem
open Cert.KernelIdeal.Pay Cert.KernelIdeal.HostSide
open scoped BigOperators

variable (m : (ℓ : Loc nD τ sig) → Buf (Elt Ideal) ℓ) (c : Dev nD)

/-! ## The arguments, as functions into the extended reals -/

abbrev X : S4x2048x1024.Idx → EReal := m ((c : Thread nD τ).loc main_arg0)
abbrev Wq : S64x1024.Idx → EReal := m ((c : Thread nD τ).loc main_arg1)
abbrev bq : S64.Idx → EReal := m ((c : Thread nD τ).loc main_arg2)
abbrev Wk : S64x1024.Idx → EReal := m ((c : Thread nD τ).loc main_arg3)
abbrev bk : S64.Idx → EReal := m ((c : Thread nD τ).loc main_arg4)
abbrev Wv : S64x1024.Idx → EReal := m ((c : Thread nD τ).loc main_arg5)
abbrev bv : S64.Idx → EReal := m ((c : Thread nD τ).loc main_arg6)

/-- The batch of point `n`. -/
def bat (n : ℕ) (hn : n < cfg0.N) : Fin 4 := ⟨n / 4, by have : cfg0.N = 16 := N_0; omega⟩
/-- The query tile of point `n`. -/
def til (n : ℕ) : Fin 4 := ⟨n % 4, Nat.mod_lt _ (by decide)⟩

/-- The three projections of batch `b`, as `[2048, 64]` arrays. -/
def bandQ (b : Fin 4) : Vec Ideal S2048x64 .bf16 := fun j => Cert.Attn.proj (X m c) (Wq m c) (bq m c) b (j 0) (j 1)
def bandK (b : Fin 4) : Vec Ideal S2048x64 .bf16 := fun j => Cert.Attn.proj (X m c) (Wk m c) (bk m c) b (j 0) (j 1)
def bandV (b : Fin 4) : Vec Ideal S2048x64 .bf16 := fun j => Cert.Attn.proj (X m c) (Wv m c) (bv m c) b (j 0) (j 1)

/-- Tile `q` of batch `b` of the result: rows `512 · q …`. -/
def tile (b q : Fin 4) : Vec Ideal S1x512x64 .f32 := fun y =>
  Cert.Attn.kerOut (X m c) (Wq m c) (bq m c) (Wk m c) (bk m c) (Wv m c) (bv m c) b
    ⟨q.val * 512 + (y 1).val, by have := q.isLt; have : (y 1).val < 512 := (y 1).isLt; omega⟩ (y 2)

/-- The whole result. -/
def G : S4x2048x64.Idx → EReal := fun i =>
  Cert.Attn.kerOut (X m c) (Wq m c) (bq m c) (Wk m c) (bk m c) (Wv m c) (bv m c) (i 0) (i 1) (i 2)

/-! ## The bands from a point's blocks -/

theorem band_q (t : Fin cfg0.N) :
    k0_pay2 (F := Ideal) (iblk m c 0 t) (iblk m c 1 t) (iblk m c 2 t) = bandQ m c (bat t.val t.isLt) := by
  funext j
  obtain ⟨s, d, rfl⟩ : ∃ s d, j = ix2 s d := ⟨j 0, j 1, eq_ix2 j⟩
  refine (pay2_apply (iblk m c 0 t) (iblk m c 1 t) (iblk m c 2 t) s d).trans ?_
  refine (pay1_apply (iblk m c 0 t) (iblk m c 1 t) (iblk m c 2 t) s ⟨d.val, by omega⟩).trans ?_
  show _ = Cert.Attn.proj (X m c) (Wq m c) (bq m c) (bat t.val t.isLt) s d
  unfold Cert.Attn.proj
  refine congrArg₂ (· + ·) (Finset.sum_congr rfl fun h _ => congrArg₂ (· * ·) ?_ ?_) ?_
  · exact (blk0_apply m c t s h).trans (congrFun (V_main_arg0 m c) _)
  · exact (blk1_apply m c t h ⟨d.val, by omega⟩).trans (wall_q m c h d)
  · exact (blk2_apply m c t ⟨d.val, by omega⟩).trans (ball_q m c d)

theorem band_k (t : Fin cfg0.N) :
    k0_pay3 (F := Ideal) (iblk m c 0 t) (iblk m c 1 t) (iblk m c 2 t) = bandK m c (bat t.val t.isLt) := by
  funext j
  obtain ⟨s, d, rfl⟩ : ∃ s d, j = ix2 s d := ⟨j 0, j 1, eq_ix2 j⟩
  refine (pay3_apply (iblk m c 0 t) (iblk m c 1 t) (iblk m c 2 t) s d).trans ?_
  refine (pay1_apply (iblk m c 0 t) (iblk m c 1 t) (iblk m c 2 t) s ⟨64 + d.val, by omega⟩).trans ?_
  show _ = Cert.Attn.proj (X m c) (Wk m c) (bk m c) (bat t.val t.isLt) s d
  unfold Cert.Attn.proj
  refine congrArg₂ (· + ·) (Finset.sum_congr rfl fun h _ => congrArg₂ (· * ·) ?_ ?_) ?_
  · exact (blk0_apply m c t s h).trans (congrFun (V_main_arg0 m c) _)
  · exact (blk1_apply m c t h ⟨64 + d.val, by omega⟩).trans (wall_k m c h d)
  · exact (blk2_apply m c t ⟨64 + d.val, by omega⟩).trans (ball_k m c d)

theorem band_v (t : Fin cfg0.N) :
    k0_pay4 (F := Ideal) (iblk m c 0 t) (iblk m c 1 t) (iblk m c 2 t) = bandV m c (bat t.val t.isLt) := by
  funext j
  obtain ⟨s, d, rfl⟩ : ∃ s d, j = ix2 s d := ⟨j 0, j 1, eq_ix2 j⟩
  refine (pay4_apply (iblk m c 0 t) (iblk m c 1 t) (iblk m c 2 t) s d).trans ?_
  refine (pay1_apply (iblk m c 0 t) (iblk m c 1 t) (iblk m c 2 t) s ⟨128 + d.val, by omega⟩).trans ?_
  show _ = Cert.Attn.proj (X m c) (Wv m c) (bv m c) (bat t.val t.isLt) s d
  unfold Cert.Attn.proj
  refine congrArg₂ (· + ·) (Finset.sum_congr rfl fun h _ => congrArg₂ (· * ·) ?_ ?_) ?_
  · exact (blk0_apply m c t s h).trans (congrFun (V_main_arg0 m c) _)
  · exact (blk1_apply m c t h ⟨128 + d.val, by omega⟩).trans (wall_v m c h d)
  · exact (blk2_apply m c t ⟨128 + d.val, by omega⟩).trans (ball_v m c d)

/-! ## A tile from the bands -/

/-- The attention of the query rows of point `t` against the bands of batch `b` is tile `t % 4` of batch `b`. -/
theorem tile_of_bands (t : Fin cfg0.N) (b : Fin 4) :
    k0_pay5 (F := Ideal) (rows (grid0.coords t) (bandQ m c b)) (bandK m c b) (bandV m c b) = tile m c b (til t.val) := by
  funext y
  obtain ⟨u, r, d, rfl⟩ : ∃ u r d, y = ix3 u r d := ⟨y 0, y 1, y 2, eq_ix3 y⟩
  obtain rfl : u = 0 := Subsingleton.elim _ _
  refine (pay5_apply (rows (grid0.coords t) (bandQ m c b)) (bandK m c b) (bandV m c b) r d).trans ?_
  show _ = Cert.Attn.kerOut (X m c) (Wq m c) (bq m c) (Wk m c) (bk m c) (Wv m c) (bv m c) b
    ⟨(til t.val).val * 512 + r.val, _⟩ d
  unfold Cert.Attn.kerOut
  refine congrArg (fun s => Cert.Attn.kerRow s _) (funext fun j => ?_)
  refine congrArg (fun q => Cert.Attn.logit Cert.Attn.scaleK q _) (funext fun e => ?_)
  exact rows_apply t (bandQ m c b) r e

/-! ## What the four buffers hold after each point -/

/-- The output's staging buffer holds tile `q` of batch `b`, and the three scratch buffers the bands of batch `b`. -/
def Holds (b q : Fin 4)
    (p : Vec Ideal S1x512x64 .f32 × Vec Ideal S2048x64 .bf16 × Vec Ideal S2048x64 .bf16 × Vec Ideal S2048x64 .bf16) : Prop :=
  p.1 = tile m c b q ∧ p.2.1 = bandQ m c b ∧ p.2.2.1 = bandK m c b ∧ p.2.2.2 = bandV m c b

theorem holds_A (t : Fin cfg0.N) (h0 : t.val % 4 = 0) :
    Holds m c (bat t.val t.isLt) (til t.val) (atA m c t h0) := by
  unfold Holds atA
  dsimp only
  refine ⟨?_, ?_, ?_, ?_⟩
  · refine (outA_3_eq (F := Ideal) c (grid0.coords t) (ms0 t) (hs0 t) (ms1 t) (hs1 t) (ms2 t) (hs2 t) (ms3 t) (hs3 t)
      scM0 (Memref.isWhole_whole _) scM1 (Memref.isWhole_whole _) scM2 (Memref.isWhole_whole _) ((hcond0 t).mpr h0)
      (iblk m c 0 t) (iblk m c 1 t) (iblk m c 2 t)).trans ?_
    rw [band_q m c t, band_k m c t, band_v m c t]
    exact tile_of_bands m c t (bat t.val t.isLt)
  · exact (soutA_0_eq (F := Ideal) c (grid0.coords t) (ms0 t) (hs0 t) (ms1 t) (hs1 t) (ms2 t) (hs2 t) (ms3 t) (hs3 t)
      scM0 (Memref.isWhole_whole _) scM1 (Memref.isWhole_whole _) scM2 (Memref.isWhole_whole _) ((hcond0 t).mpr h0)
      (iblk m c 0 t) (iblk m c 1 t) (iblk m c 2 t)).trans (band_q m c t)
  · exact (soutA_1_eq (F := Ideal) c (grid0.coords t) (ms0 t) (hs0 t) (ms1 t) (hs1 t) (ms2 t) (hs2 t) (ms3 t) (hs3 t)
      scM0 (Memref.isWhole_whole _) scM1 (Memref.isWhole_whole _) scM2 (Memref.isWhole_whole _) ((hcond0 t).mpr h0)
      (iblk m c 0 t) (iblk m c 1 t) (iblk m c 2 t)).trans (band_k m c t)
  · exact (soutA_2_eq (F := Ideal) c (grid0.coords t) (ms0 t) (hs0 t) (ms1 t) (hs1 t) (ms2 t) (hs2 t) (ms3 t) (hs3 t)
      scM0 (Memref.isWhole_whole _) scM1 (Memref.isWhole_whole _) scM2 (Memref.isWhole_whole _) ((hcond0 t).mpr h0)
      (iblk m c 0 t) (iblk m c 1 t) (iblk m c 2 t)).trans (band_v m c t)

theorem holds_B (t : Fin cfg0.N) (h0 : ¬t.val % 4 = 0) (b : Fin 4)
    (p : Vec Ideal S1x512x64 .f32 × Vec Ideal S2048x64 .bf16 × Vec Ideal S2048x64 .bf16 × Vec Ideal S2048x64 .bf16)
    (hq : p.2.1 = bandQ m c b) (hk : p.2.2.1 = bandK m c b) (hv : p.2.2.2 = bandV m c b) :
    Holds m c b (til t.val) (atB m c t h0 p) := by
  unfold Holds atB
  dsimp only
  refine ⟨?_, hq, hk, hv⟩
  refine (outB_3_eq (F := Ideal) c (grid0.coords t) (ms0 t) (hs0 t) (ms1 t) (hs1 t) (ms2 t) (hs2 t) (ms3 t) (hs3 t)
    scM0 (Memref.isWhole_whole _) scM1 (Memref.isWhole_whole _) scM2 (Memref.isWhole_whole _) (fun h => h0 ((hcond0 t).mp h))
    (iblk m c 0 t) (iblk m c 1 t) (iblk m c 2 t) p.2.1 p.2.2.1 p.2.2.2).trans ?_
  rw [hq, hk, hv]
  exact tile_of_bands m c t b

/-- After point `n`: tile `n % 4` of batch `n / 4`, and the bands of batch `n / 4`. -/
theorem holds_outs : ∀ (n : ℕ) (hn : n < cfg0.N), Holds m c (bat n hn) (til n) (outsAt0 m c n hn)
  | 0, hn => holds_A m c ⟨0, hn⟩ (Nat.zero_mod _)
  | n + 1, hn => by
    by_cases h0 : (n + 1) % 4 = 0
    · rw [show outsAt0 m c (n + 1) hn = atA m c ⟨n + 1, hn⟩ h0 from dif_pos h0]
      exact holds_A m c ⟨n + 1, hn⟩ h0
    · rw [show outsAt0 m c (n + 1) hn = atB m c ⟨n + 1, hn⟩ h0 (outsAt0 m c n (Nat.lt_of_succ_lt hn)) from dif_neg h0]
      have ih := holds_outs n (Nat.lt_of_succ_lt hn)
      have hb : bat n (Nat.lt_of_succ_lt hn) = bat (n + 1) hn := Fin.ext (by show n / 4 = (n + 1) / 4; omega)
      rw [hb] at ih
      exact holds_B m c ⟨n + 1, hn⟩ h0 (bat (n + 1) hn) _ ih.2.1 ih.2.2.1 ih.2.2.2

/-! ## What each point writes back, and the result -/

/-- Point `t` writes back its block of the one array `G`. -/
theorem flushed3 (t : Fin cfg0.N) :
    (dats (F := Ideal) m 0 c).flushed 3 t = ((cfg0.win 3).blk t).view.read (Elt Ideal) (G m c) := by
  show (cfg0.win 3).cut (grid0.coords t) ((dats m 0 c).after 3 t) = _
  rw [after3, (holds_outs m c t.val t.isLt).1]
  funext y
  obtain ⟨u, r, d, rfl⟩ : ∃ u r d, y = ix3 u r d := ⟨y 0, y 1, y 2, eq_ix3 y⟩
  obtain rfl : u = 0 := Subsingleton.elim _ _
  show tile m c (bat t.val t.isLt) (til t.val) ((cfg0.win 3).xinj (grid0.coords t) (ix3 0 r d))
    = G m c (((cfg0.win 3).blk t).view.emb (ix3 0 r d))
  rw [emb3 t r d]
  rfl

/-- The result array ends holding `G`. -/
theorem final : (dats (F := Ideal) m 0 c).arrAt 3 cfg0.N = G m c :=
  final_of _ _ (flushed3 m c)

end Cert.KernelIdeal.Val

end
-- ==== Proof.RefRead.lean ====
/-
  The reference program's run and its operations read at an index, made available to the modules that compare
  the reference with the kernel.
-/
import proofs.«401241_j4398046511431_3_alg».proof.Proof.Gen.ReferenceIdeal.Read
-- ==== Proof.RefValue.lean ====
/-
  The reference program's result read at an index.

  Each stage of the reference is read at explicit coordinates: the three projections, the scaled logits, a row's
  maximum (a fold of `max` from `⊥`), the exponentials of the logits less that maximum, their sum from `0`, the
  weights normalised one by one, and the weighted sum of the value rows. Together they say that the result at
  `(n, s, d)` is `Cert.Attn.refOut` there.
-/
import proofs.«401241_j4398046511431_3_alg».proof.Proof.RefRead
import proofs.«401241_j4398046511431_3_alg».proof.Proof.Spec
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The index functions of the stages, at coordinates -/

theorem lidx_v0 (n : Fin 4) (s : Fin 2048) (d : Fin 64) (k : Fin 1024) : lidx_main_v0 (ix3 n s d) k = ix3 n s k :=
  funext fun a => Fin.ext (by match a with | ⟨0, _⟩ => rfl | ⟨1, _⟩ => rfl | ⟨2, _⟩ => rfl)
theorem ridx_v0 (n : Fin 4) (s : Fin 2048) (d : Fin 64) (k : Fin 1024) : ridx_main_v0 (ix3 n s d) k = ix2 d k :=
  funext fun a => Fin.ext (by match a with | ⟨0, _⟩ => rfl | ⟨1, _⟩ => rfl)
theorem lidx_v4 (n : Fin 4) (s : Fin 2048) (d : Fin 64) (k : Fin 1024) : lidx_main_v4 (ix3 n s d) k = ix3 n s k :=
  funext fun a => Fin.ext (by match a with | ⟨0, _⟩ => rfl | ⟨1, _⟩ => rfl | ⟨2, _⟩ => rfl)
theorem ridx_v4 (n : Fin 4) (s : Fin 2048) (d : Fin 64) (k : Fin 1024) : ridx_main_v4 (ix3 n s d) k = ix2 d k :=
  funext fun a => Fin.ext (by match a with | ⟨0, _⟩ => rfl | ⟨1, _⟩ => rfl)
theorem lidx_v8 (n : Fin 4) (s : Fin 2048) (d : Fin 64) (k : Fin 1024) : lidx_main_v8 (ix3 n s d) k = ix3 n s k :=
  funext fun a => Fin.ext (by match a with | ⟨0, _⟩ => rfl | ⟨1, _⟩ => rfl | ⟨2, _⟩ => rfl)
theorem ridx_v8 (n : Fin 4) (s : Fin 2048) (d : Fin 64) (k : Fin 1024) : ridx_main_v8 (ix3 n s d) k = ix2 d k :=
  funext fun a => Fin.ext (by match a with | ⟨0, _⟩ => rfl | ⟨1, _⟩ => rfl)
theorem idx_v1_v2 (n : Fin 4) (s : Fin 2048) (d : Fin 64) : idx_main_v1 (idx_main_v2 (ix3 n s d)) = ix1 d :=
  funext fun a => Fin.ext (by match a with | ⟨0, _⟩ => rfl)
theorem idx_v5_v6 (n : Fin 4) (s : Fin 2048) (d : Fin 64) : idx_main_v5 (idx_main_v6 (ix3 n s d)) = ix1 d :=
  funext fun a => Fin.ext (by match a with | ⟨0, _⟩ => rfl)
theorem idx_v9_v10 (n : Fin 4) (s : Fin 2048) (d : Fin 64) : idx_main_v9 (idx_main_v10 (ix3 n s d)) = ix1 d :=
  funext fun a => Fin.ext (by match a with | ⟨0, _⟩ => rfl)
theorem lidx_v14 (n : Fin 4) (s j : Fin 2048) (k : Fin 64) : lidx_main_v14 (ix3 n s j) k = ix3 n s k :=
  funext fun a => Fin.ext (by match a with | ⟨0, _⟩ => rfl | ⟨1, _⟩ => rfl | ⟨2, _⟩ => rfl)
theorem ridx_v14 (n : Fin 4) (s j : Fin 2048) (k : Fin 64) : ridx_main_v14 (ix3 n s j) k = ix3 n j k :=
  funext fun a => Fin.ext (by match a with | ⟨0, _⟩ => rfl | ⟨1, _⟩ => rfl | ⟨2, _⟩ => rfl)
theorem idx_v20_v21 (n : Fin 4) (s j : Fin 2048) : idx_main_v20 (idx_main_v21 (ix3 n s j)) = ix2 n s :=
  funext fun a => Fin.ext (by match a with | ⟨0, _⟩ => rfl | ⟨1, _⟩ => rfl)
theorem idx_v24 (n : Fin 4) (s k : Fin 2048) : idx_main_v24 (ix2 n s) k = ix3 n s k :=
  funext fun a => Fin.ext (by match a with | ⟨0, _⟩ => rfl | ⟨1, _⟩ => rfl | ⟨2, _⟩ => rfl)
theorem idx_v25_v26 (n : Fin 4) (s j : Fin 2048) : idx_main_v25 (idx_main_v26 (ix3 n s j)) = ix2 n s :=
  funext fun a => Fin.ext (by match a with | ⟨0, _⟩ => rfl | ⟨1, _⟩ => rfl)
theorem lidx_v28 (n : Fin 4) (s : Fin 2048) (d : Fin 64) (k : Fin 2048) : lidx_main_v28 (ix3 n s d) k = ix3 n s k :=
  funext fun a => Fin.ext (by match a with | ⟨0, _⟩ => rfl | ⟨1, _⟩ => rfl | ⟨2, _⟩ => rfl)
theorem ridx_v28 (n : Fin 4) (s : Fin 2048) (d : Fin 64) (k : Fin 2048) : ridx_main_v28 (ix3 n s d) k = ix3 n k d :=
  funext fun a => Fin.ext (by match a with | ⟨0, _⟩ => rfl | ⟨1, _⟩ => rfl | ⟨2, _⟩ => rfl)

/-- The word of `-∞` is the bottom of the extended reals. -/
theorem ofBits_neg_inf_f32 : Ideal.ofBits .f32 0xFF800000#32 = ⊥ := by simp [Ideal.ofBits, Ideal.ieee]

section
variable (x0 : (⟨S4x2048x1024, .f32⟩ : BufTy).Contents (Elt Ideal))
  (x1 : (⟨S64x1024, .f32⟩ : BufTy).Contents (Elt Ideal)) (x2 : (⟨S64, .f32⟩ : BufTy).Contents (Elt Ideal))
  (x3 : (⟨S64x1024, .f32⟩ : BufTy).Contents (Elt Ideal)) (x4 : (⟨S64, .f32⟩ : BufTy).Contents (Elt Ideal))
  (x5 : (⟨S64x1024, .f32⟩ : BufTy).Contents (Elt Ideal)) (x6 : (⟨S64, .f32⟩ : BufTy).Contents (Elt Ideal))

/-! ## The three projections -/

theorem proj_q_apply (n : Fin 4) (s : Fin 2048) (d : Fin 64) :
    val_main_v3 (F := Ideal) x0 x1 x2 (ix3 n s d) = Cert.Attn.proj x0 x1 x2 n s d := by
  rw [val_main_v3_apply, val_main_v0_apply, val_main_v2_apply, val_main_v1_apply]
  simp only [lidx_v0, ridx_v0, idx_v1_v2]
  rfl

theorem proj_k_apply (n : Fin 4) (s : Fin 2048) (d : Fin 64) :
    val_main_v7 (F := Ideal) x0 x3 x4 (ix3 n s d) = Cert.Attn.proj x0 x3 x4 n s d := by
  rw [val_main_v7_apply, val_main_v4_apply, val_main_v6_apply, val_main_v5_apply]
  simp only [lidx_v4, ridx_v4, idx_v5_v6]
  rfl

theorem proj_v_apply (n : Fin 4) (s : Fin 2048) (d : Fin 64) :
    val_main_v11 (F := Ideal) x0 x5 x6 (ix3 n s d) = Cert.Attn.proj x0 x5 x6 n s d := by
  rw [val_main_v11_apply, val_main_v8_apply, val_main_v10_apply, val_main_v9_apply]
  simp only [lidx_v8, ridx_v8, idx_v9_v10]
  rfl

/-! ## The logits of a query row, and the stages over them -/

/-- The logits of query row `s` of batch `n` against every key row, with the computed scale. -/
def logits (n : Fin 4) (s : Fin 2048) : Fin 2048 → EReal :=
  fun j => Cert.Attn.logit Cert.Attn.scaleR (Cert.Attn.proj x0 x1 x2 n s) (Cert.Attn.proj x0 x3 x4 n j)

theorem logit_apply (n : Fin 4) (s j : Fin 2048) :
    val_main_v16 (F := Ideal) x0 x1 x2 x3 x4 (ix3 n s j) = logits x0 x1 x2 x3 x4 n s j := by
  rw [val_main_v16_apply, val_main_v14_apply, val_main_v15_apply, val_main_v13_apply, val_main_cst_0_apply,
    val_main_v12_apply, val_main_cst_apply]
  simp only [lidx_v14, ridx_v14, proj_q_apply, proj_k_apply]
  rfl

/-- The max-reduce over the key axis is the row's maximum, from `⊥`. -/
theorem rowMax_apply (n : Fin 4) (s : Fin 2048) :
    val_main_v17 (F := Ideal) x0 x1 x2 x3 x4 (ix2 n s) = Cert.Attn.rowMax (logits x0 x1 x2 x3 x4 n s) := by
  unfold val_main_v17
  have h : S4x2048x2048.Reduces [2] S4x2048 := by decide
  rw [Host.reduce_eq_fold_single _ _ _ reducesTo_S4x2048x2048_S4x2048_d2 h h_S_]
  have e1 : val_main_cst_1 (F := Ideal) (Shape.Idx.first h_S_) = (⊥ : EReal) := ofBits_neg_inf_f32
  rw [e1]
  unfold Cert.Attn.rowMax
  refine congrArg (fun f => Finset.fold max (⊥ : EReal) f (Finset.univ : Finset (Fin 2048))) (funext fun k => ?_)
  refine Eq.trans ?_ (logit_apply x0 x1 x2 x3 x4 n s k)
  exact congrArg (val_main_v16 (F := Ideal) x0 x1 x2 x3 x4)
    (funext fun a => Fin.ext (by match a with | ⟨0, _⟩ => rfl | ⟨1, _⟩ => rfl | ⟨2, _⟩ => rfl))

/-- The exponentials of the logits less the row's maximum (taken once more against `⊥`). -/
theorem exp_apply (n : Fin 4) (s j : Fin 2048) :
    val_main_v23 (F := Ideal) x0 x1 x2 x3 x4 (ix3 n s j)
      = Ideal.exp (logits x0 x1 x2 x3 x4 n s j - max ⊥ (Cert.Attn.rowMax (logits x0 x1 x2 x3 x4 n s))) := by
  rw [val_main_v23_apply, val_main_v22_apply, val_main_v21_apply, val_main_v20_apply, idx_v20_v21, val_main_v19_apply,
    val_main_v18_apply, val_main_cst_2_apply, logit_apply, rowMax_apply]
  exact congrArg (fun b => Ideal.exp (logits x0 x1 x2 x3 x4 n s j - max b (Cert.Attn.rowMax (logits x0 x1 x2 x3 x4 n s))))
    ofBits_neg_inf_f32

/-- Their sum over the key axis, from `0`. -/
theorem sum_apply (n : Fin 4) (s : Fin 2048) :
    val_main_v24 (F := Ideal) x0 x1 x2 x3 x4 (ix2 n s)
      = 0 + ∑ k : Fin 2048, Ideal.exp (logits x0 x1 x2 x3 x4 n s k - max ⊥ (Cert.Attn.rowMax (logits x0 x1 x2 x3 x4 n s))) := by
  rw [val_main_v24_apply, val_main_cst_3_apply]
  simp only [idx_v24, exp_apply]
  exact congrArg (· + _) Ideal.ofBits_zero_f32

/-- A weight, normalised by the row's sum. -/
theorem weight_apply (n : Fin 4) (s j : Fin 2048) :
    val_main_v27 (F := Ideal) x0 x1 x2 x3 x4 (ix3 n s j)
      = Ideal.div (Ideal.exp (logits x0 x1 x2 x3 x4 n s j - max ⊥ (Cert.Attn.rowMax (logits x0 x1 x2 x3 x4 n s))))
          (0 + ∑ k : Fin 2048, Ideal.exp (logits x0 x1 x2 x3 x4 n s k - max ⊥ (Cert.Attn.rowMax (logits x0 x1 x2 x3 x4 n s)))) := by
  rw [val_main_v27_apply, val_main_v26_apply, val_main_v25_apply, idx_v25_v26, exp_apply, sum_apply]
  rfl

/-! ## The result -/

/-- The reference's result at `(n, s, d)` is the closed form. -/
theorem result_apply (n : Fin 4) (s : Fin 2048) (d : Fin 64) :
    val_main_v28 (F := Ideal) x0 x1 x2 x3 x4 x5 x6 (ix3 n s d) = Cert.Attn.refOut x0 x1 x2 x3 x4 x5 x6 n s d := by
  rw [val_main_v28_apply]
  simp only [lidx_v28, ridx_v28, weight_apply, proj_v_apply]
  rfl

end

end Cert.ReferenceIdeal.RefValue

end
-- ==== Proof.AttnLaw.lean ====
/-
  The algebra of single-head attention over the extended reals.

  * The four words that occur denote `1/8`, `1`, `64` and `⊥`; as `√64 = 8`, the computed scale `1 / √64` is the
    literal scale `1/8`.
  * On a nonempty row of real logits `s` against real values `v`, the maximum from `⊥` is an entry `M` of the row, so
    a real, and taking it once more against `⊥` changes nothing. Every weight `p k = exp (s k - M)` is a positive
    real, so their sum `L` is a positive real, and starting that sum from `0` changes nothing. Dividing by `L` is then
    multiplying by the real `1 / L`, and in `ℝ`
        `(∑ k, p k · v k) · (1 / L) = ∑ k, (p k · (1 / L)) · v k`.
    So normalising the weighted sum and normalising weight by weight agree.
  * A projection of real arrays is real, and so is a logit of real rows at a real scale; with these the two
    results agree on real arguments.
-/
import proofs.«401241_j4398046511431_3_alg».proof.Proof.Spec
import Mathlib.Data.EReal.Basic
import Mathlib.Data.EReal.Operations
import Mathlib.Data.Finset.Lattice.Fold
import Mathlib.Analysis.Real.Sqrt
import Mathlib.Analysis.Complex.Exponential
import Mathlib.Algebra.Order.BigOperators.Group.Finset

noncomputable section

namespace Cert.Attn

open Idealize.ShloMosaic Idealize.ShloMosaic.ValueIdx
open scoped BigOperators

/-! ### The words -/

/-- The word `0x3E000000`: exponent field `124`, no fraction, so `2^23 · 2^(124 - 127 - 23) = 1/8`. -/
theorem ofBits_eighth : Ideal.ofBits .f32 0x3E000000#32 = ((0.125 : ℝ) : EReal) := by
  simp [Ideal.ofBits, Ideal.ieee, -EReal.coe_mul]; norm_num

/-- The word `0x3F800000`: exponent field `127`, no fraction, so `1`. -/
theorem ofBits_one : Ideal.ofBits .f32 0x3F800000#32 = ((1 : ℝ) : EReal) := by
  simp [Ideal.ofBits, Ideal.ieee, -EReal.coe_mul]; norm_num

/-- The word `0x42800000`: exponent field `133`, no fraction, so `2^6 = 64`. -/
theorem ofBits_sixtyfour : Ideal.ofBits .f32 0x42800000#32 = ((64 : ℝ) : EReal) := by
  simp [Ideal.ofBits, Ideal.ieee, -EReal.coe_mul]; norm_num

/-- The word `0xFF800000`: sign set, exponent field all ones, no fraction, so `-∞`. -/
theorem ofBits_neg_inf : Ideal.ofBits .f32 0xFF800000#32 = ⊥ := by
  simp [Ideal.ofBits, Ideal.ieee]

/-- The literal scale is the real `1/8`. -/
theorem scaleK_real : ∃ r : ℝ, scaleK = (r : EReal) := ⟨0.125, ofBits_eighth⟩

/-- `1 / √64 = 1/8`. -/
theorem scaleR_eq_scaleK : scaleR = scaleK := by
  have h8 : Real.sqrt 64 = 8 := by
    rw [show (64 : ℝ) = 8 * 8 by norm_num]
    exact Real.sqrt_mul_self (by norm_num)
  unfold scaleR scaleK
  rw [ofBits_one, ofBits_sixtyfour, ofBits_eighth, Ideal.sqrt_coe, if_neg (by norm_num), h8,
    Ideal.div_coe (by norm_num : (8 : ℝ) ≠ 0), ← EReal.coe_mul]
  norm_num

/-! ### Sums of reals -/

/-- The coercion of a finite sum of reals is the sum of the coercions. -/
theorem coe_sum {ι : Type*} (t : Finset ι) (f : ι → ℝ) :
    ((∑ i ∈ t, f i : ℝ) : EReal) = ∑ i ∈ t, ((f i : ℝ) : EReal) := by
  classical
  refine Finset.induction_on t ?_ ?_
  · simp
  · intro a u ha ih
    rw [Finset.sum_insert ha, Finset.sum_insert ha, EReal.coe_add, ih]

/-! ### A row -/

/-- On a nonempty row of reals the maximum from `⊥` is one of the entries, so a real. -/
theorem rowMax_real {K : ℕ} (hK : 0 < K) (a : Fin K → ℝ) :
    ∃ M : ℝ, rowMax (fun k => ((a k : ℝ) : EReal)) = (M : EReal) := by
  haveI : Nonempty (Fin K) := ⟨⟨0, hK⟩⟩
  obtain ⟨i, -, hi⟩ := Finset.exists_mem_eq_sup (Finset.univ : Finset (Fin K)) Finset.univ_nonempty
    (fun k => ((a k : ℝ) : EReal))
  exact ⟨a i, hi⟩

/-- Normalising the weighted sum and normalising weight by weight agree on a nonempty real row. -/
theorem kerRow_eq_refRow {K : ℕ} (hK : 0 < K) (s v : Fin K → EReal)
    (hs : ∀ k, ∃ r : ℝ, s k = (r : EReal)) (hv : ∀ k, ∃ r : ℝ, v k = (r : EReal)) :
    kerRow s v = refRow s v := by
  haveI : Nonempty (Fin K) := ⟨⟨0, hK⟩⟩
  choose a ha using hs
  choose b hb using hv
  obtain rfl : s = fun k => ((a k : ℝ) : EReal) := funext ha
  obtain rfl : v = fun k => ((b k : ℝ) : EReal) := funext hb
  obtain ⟨M, hM⟩ := rowMax_real hK a
  -- the weights and their sum, in ℝ
  let p : Fin K → ℝ := fun k => Real.exp (a k - M)
  have hp : ∀ k, Ideal.exp (((a k : ℝ) : EReal) - (M : EReal)) = ((p k : ℝ) : EReal) := fun k => by
    rw [← EReal.coe_sub, Ideal.exp_coe]
  have hL : (0 : ℝ) < ∑ k, p k := Finset.sum_pos (fun k _ => Real.exp_pos _) Finset.univ_nonempty
  have hbot : max (⊥ : EReal) (M : EReal) = (M : EReal) := max_eq_right bot_le
  -- the two sides as coercions of reals
  have hker : kerRow (fun k => ((a k : ℝ) : EReal)) (fun k => ((b k : ℝ) : EReal))
      = (((∑ k, p k * b k) * (1 / ∑ k, p k) : ℝ) : EReal) := by
    unfold kerRow
    simp only [hM, hp]
    rw [EReal.coe_mul, ← Ideal.div_coe hL.ne', coe_sum, coe_sum]
    simp only [EReal.coe_mul]
  have href : refRow (fun k => ((a k : ℝ) : EReal)) (fun k => ((b k : ℝ) : EReal))
      = ((∑ k, p k * (1 / ∑ k', p k') * b k : ℝ) : EReal) := by
    unfold refRow
    simp only [hM, hbot, hp, zero_add]
    rw [coe_sum]
    refine Finset.sum_congr rfl (fun k _ => ?_)
    rw [EReal.coe_mul, EReal.coe_mul, ← Ideal.div_coe hL.ne', coe_sum]
  rw [hker, href, Finset.sum_mul]
  congr 1
  exact Finset.sum_congr rfl (fun k _ => by ring)

/-! ### Real arguments -/

/-- A projection of real arrays is real. -/
theorem proj_real (x : (⟨3, ![4, 2048, 1024]⟩ : Shape).Idx → EReal) (W : (⟨2, ![64, 1024]⟩ : Shape).Idx → EReal)
    (b : (⟨1, ![64]⟩ : Shape).Idx → EReal)
    (hx : ∀ i, ∃ r : ℝ, x i = (r : EReal)) (hW : ∀ i, ∃ r : ℝ, W i = (r : EReal))
    (hb : ∀ i, ∃ r : ℝ, b i = (r : EReal)) (n : Fin 4) (s : Fin 2048) (d : Fin 64) :
    ∃ r : ℝ, proj x W b n s d = (r : EReal) := by
  choose xr hxr using hx
  choose Wr hWr using hW
  choose br hbr using hb
  refine ⟨(∑ h : Fin 1024, xr (ix3 n s h) * Wr (ix2 d h)) + br (ix1 d), ?_⟩
  unfold proj
  rw [EReal.coe_add, coe_sum, hbr]
  congr 1
  exact Finset.sum_congr rfl (fun h _ => by rw [hxr, hWr, EReal.coe_mul])

/-- A logit of real rows at a real scale is real. -/
theorem logit_real (c : EReal) (q k : Fin 64 → EReal) (hc : ∃ r : ℝ, c = (r : EReal))
    (hq : ∀ e, ∃ r : ℝ, q e = (r : EReal)) (hk : ∀ e, ∃ r : ℝ, k e = (r : EReal)) :
    ∃ r : ℝ, logit c q k = (r : EReal) := by
  obtain ⟨cr, rfl⟩ := hc
  choose qr hqr using hq
  choose kr hkr using hk
  refine ⟨(∑ e : Fin 64, qr e * kr e) * cr, ?_⟩
  unfold logit
  rw [EReal.coe_mul, coe_sum]
  congr 1
  exact Finset.sum_congr rfl (fun e _ => by rw [hqr, hkr, EReal.coe_mul])

/-- On real arguments the two results agree. -/
theorem kerOut_eq_refOut (x : (⟨3, ![4, 2048, 1024]⟩ : Shape).Idx → EReal)
    (Wq : (⟨2, ![64, 1024]⟩ : Shape).Idx → EReal) (bq : (⟨1, ![64]⟩ : Shape).Idx → EReal)
    (Wk : (⟨2, ![64, 1024]⟩ : Shape).Idx → EReal) (bk : (⟨1, ![64]⟩ : Shape).Idx → EReal)
    (Wv : (⟨2, ![64, 1024]⟩ : Shape).Idx → EReal) (bv : (⟨1, ![64]⟩ : Shape).Idx → EReal)
    (hx : ∀ i, ∃ r : ℝ, x i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (n : Fin 4) (s : Fin 2048) (d : Fin 64) :
    kerOut x Wq bq Wk bk Wv bv n s d = refOut x Wq bq Wk bk Wv bv n s d := by
  unfold kerOut refOut
  rw [scaleR_eq_scaleK]
  exact kerRow_eq_refRow (by norm_num) _ _
    (fun j => logit_real _ _ _ scaleK_real (fun e => proj_real x Wq bq hx hWq hbq n s e)
      (fun e => proj_real x Wk bk hx hWk hbk n j e))
    (fun j => proj_real x Wv bv hx hWv hbv n j d)

end Cert.Attn

end
-- ==== Proof.Finite.lean ====
/-
  The precondition read back: where every one of the seven arrays passes `all (|a| < +∞)`, every entry is a real.

  * The word `0x7F800000` denotes `⊤`.
  * Over the extended reals the absolute value is `max x (-x)`; it is `⊤` at `⊥` and at `⊤`, so `max x (-x) < ⊤` leaves
    only the reals.
  * A reduction by `and` over all axes, from `1`, that comes out `1` had a `1` at every index; there the comparison
    `|a i| < ⊤` holds. One lemma, generic in the array's shape, says this of an array.
  * The predicate is the `and` of seven such bits, nested to the left; its being `1` gives each of them.
-/
import proofs.«401241_j4398046511431_3_alg».proof.Pre_finite_inputs
import Idealize.ShloMosaic.PureOps.Ideal
import Idealize.ShloMosaic.PureOps.Ideal.Laws
import Idealize.ShloMosaic.Lib.Affine
import Idealize.ShloMosaic.Lib.ReduceAll
import Idealize.ShloMosaic.Lib.ValueIdx
import Mathlib.Data.EReal.Basic

noncomputable section

namespace Cert.Attn

open Idealize.ShloMosaic

/-- The word `0x7F800000`: sign clear, exponent field all ones, no fraction, so `+∞`. -/
theorem ofBits_pos_inf : Ideal.ofBits .f32 0x7F800000#32 = ⊤ := by
  simp [Ideal.ofBits, Ideal.ieee]

/-- An extended real whose absolute value `max x (-x)` is below `⊤` is a real: at `⊥` and at `⊤` that maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- A bit made from a truth value is `1` exactly when the value is true. -/
theorem ofBool_eq_one_iff {b : Bool} : BitVec.ofBool b = 1#1 ↔ b = true := by cases b <;> decide

/-- One entry: the comparison `|x| < +∞` coming out `1` says `x` is a real. -/
theorem real_of_abs_cmp (x : Ideal .f32)
    (h : FloatOps.cmpf (F := Ideal) .olt (FloatOps.hostAbsf x) (FloatOps.ofBits .f32 0x7F800000#32) = 1#1) :
    ∃ r : ℝ, x = (r : EReal) := by
  change BitVec.ofBool (decide (max x (-x) < Ideal.ofBits .f32 0x7F800000#32)) = 1#1 at h
  rw [ofBits_pos_inf, ofBool_eq_one_iff, decide_eq_true_eq] at h
  exact real_of_abs_lt_top x h

/-- The rank-0 shape has one index. -/
instance : Subsingleton Cert.Pre_finite_inputs.S_.Idx := ⟨fun a b => funext fun d => d.elim0⟩

/-- One array, of any shape: `all (|a| < +∞)` coming out `1` says every entry of `a` is a real. -/
theorem real_of_all_abs_lt {s : Shape} {axes : List (Fin s.rank)}
    {dims : Fin Cert.Pre_finite_inputs.S_.rank → Fin s.rank}
    (hb : Cert.Pre_finite_inputs.S_.BroadcastsInDim s dims) (hr : s.ReducesTo axes Cert.Pre_finite_inputs.S_)
    (hu : 0 < Cert.Pre_finite_inputs.S_.numel) (a : FVec Ideal s .f32)
    (e : Host.reduce IntOp.andi
        (cmpf .olt (Host.absf a)
          (broadcastInDim s dims hb (constant (F := Ideal) Cert.Pre_finite_inputs.S_ .f32 0x7F800000#32)))
        (constantI Cert.Pre_finite_inputs.S_ 1 1#1) hr hu ValueIdx.ix0 = 1#1) :
    ∀ i, ∃ r : ℝ, a i = (r : EReal) := fun i =>
  real_of_abs_cmp (a i) (Host.reduce_andi_all _ _ hr hu ValueIdx.ix0 e i)

/-- The `and` of two bit arrays is `1` at an index exactly when both are. -/
theorem andi_apply_eq_one {s : Shape} (x y : IVec s 1) (i : s.Idx) :
    Idealize.ShloMosaic.andi x y i = 1#1 ↔ x i = 1#1 ∧ y i = 1#1 := IntOp.andi_eq_one

/-- Where the precondition is `1`, every entry of every argument is a real. -/
theorem finite_of_pre [Cert.Pre_finite_inputs.Facts] (a0 : FVec Ideal Cert.Pre_finite_inputs.S4x2048x1024 .f32)
    (a1 : FVec Ideal Cert.Pre_finite_inputs.S64x1024 .f32) (a2 : FVec Ideal Cert.Pre_finite_inputs.S64 .f32)
    (a3 : FVec Ideal Cert.Pre_finite_inputs.S64x1024 .f32) (a4 : FVec Ideal Cert.Pre_finite_inputs.S64 .f32)
    (a5 : FVec Ideal Cert.Pre_finite_inputs.S64x1024 .f32) (a6 : FVec Ideal Cert.Pre_finite_inputs.S64 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have e := congrFun h ValueIdx.ix0
  dsimp only [Cert.Pre_finite_inputs.fn, Cert.Pre_finite_inputs.fn_part1] at e
  obtain ⟨e, e6⟩ := (andi_apply_eq_one _ _ _).1 e
  obtain ⟨e, e5⟩ := (andi_apply_eq_one _ _ _).1 e
  obtain ⟨e, e4⟩ := (andi_apply_eq_one _ _ _).1 e
  obtain ⟨e, e3⟩ := (andi_apply_eq_one _ _ _).1 e
  obtain ⟨e, e2⟩ := (andi_apply_eq_one _ _ _).1 e
  obtain ⟨e0, e1⟩ := (andi_apply_eq_one _ _ _).1 e
  exact ⟨real_of_all_abs_lt _ _ _ a0 e0, real_of_all_abs_lt _ _ _ a1 e1, real_of_all_abs_lt _ _ _ a2 e2,
    real_of_all_abs_lt _ _ _ a3 e3, real_of_all_abs_lt _ _ _ a4 e4, real_of_all_abs_lt _ _ _ a5 e5,
    real_of_all_abs_lt _ _ _ a6 e6⟩

end Cert.Attn

end
-- ==== Proof.Claims.lean ====
/-
  The certificate's five claims, assembled.

  * The two frame claims of the kernel program (as printed, and read over the extended reals) are the frame runs.
  * The reference's frame claim is its run, keeping the clauses about the arguments.
  * The idealization rewrote nothing, so its claim is trivial.
  * The algebraic claim. Over the extended reals the kernel program's run leaves the result array at `G`, the
    normalise-after attention of the seven arguments, and the arguments as launched. The reference's run leaves its
    result at its own closed form of its arguments, index by index the normalise-first attention with the computed
    scale. The two memories agree on the arguments; the precondition says every entry of every argument is a real;
    and on real arguments the two attentions are equal. So both runs end with the one array `G`.
-/
import proofs.«401241_j4398046511431_3_alg».proof.Defs
import proofs.«401241_j4398046511431_3_alg».proof.Proof.KBFrame
import proofs.«401241_j4398046511431_3_alg».proof.Proof.KIFrame
import proofs.«401241_j4398046511431_3_alg».proof.Proof.KIValue
import proofs.«401241_j4398046511431_3_alg».proof.Proof.RefValue
import proofs.«401241_j4398046511431_3_alg».proof.Proof.AttnLaw
import proofs.«401241_j4398046511431_3_alg».proof.Proof.Finite
import proofs.«401241_j4398046511431_3_alg».proof.Proof.Gen.Kernel
import proofs.«401241_j4398046511431_3_alg».proof.Proof.Gen.KernelIdeal
import proofs.«401241_j4398046511431_3_alg».proof.Proof.Gen.ReferenceIdeal
import proofs.«401241_j4398046511431_3_alg».proof.Proof.Gen.Pre_finite_inputs

set_option maxRecDepth 16384

noncomputable section

namespace Cert.Proof.Claims

open Idealize.ShloMosaic Idealize.ShloMosaic.TcCoe Idealize.ShloMosaic.ValueIdx Idealize.SL.Sem

/-! ## The frames -/

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-! ## The two results are one array -/

/-- The reference's result, from a memory agreeing with the kernel program's on the arguments, all of whose entries
    are real, is the kernel program's `G`. -/
theorem ref_result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = (fun _ => 1#1))
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v28 m' c = Cert.KernelIdeal.Val.G m c := by
  rw [Cert.ReferenceIdeal.Read.val_main_v28_eq, a0, a1, a2, a3, a4, a5, a6]
  funext i
  obtain ⟨n, s, d, rfl⟩ : ∃ n s d, i = ix3 n s d := ⟨i 0, i 1, i 2, eq_ix3 i⟩
  refine (Cert.ReferenceIdeal.RefValue.result_apply _ _ _ _ _ _ _ n s d).trans ?_
  obtain ⟨h0, h1, h2, h3, h4, h5, h6⟩ := Cert.Attn.finite_of_pre _ _ _ _ _ _ _ hpre
  exact (Cert.Attn.kerOut_eq_refOut _ _ _ _ _ _ _ h0 h1 h2 h3 h4 h5 h6 n s d).symm

/-! ## The algebraic claim -/

theorem algebraic : Cert.algebraic_KernelIdeal_ReferenceIdeal := by
  intro m ρ m' ρ' hpre hagree
  refine ⟨fun c => Cert.KernelIdeal.Val.G m c, ?_, ?_⟩
  · exact (θ_run Cert.KernelIdeal.defs _ _).mono (fun r h c =>
      ⟨((h c).1 3).trans (Cert.KernelIdeal.Val.final m c),
        ((h c).1 0).trans (((Cert.KernelIdeal.Fr.dats m 0 c).arrAt_in 0 rfl _).trans
          ((Cert.KernelIdeal.Fr.A_eq m c 0).trans (Cert.KernelIdeal.Fr.V_main_arg0 m c))),
        ((h c).2 Cert.KernelIdeal.main_arg1 (Pipeline.mem_restRefs_of Cert.KernelIdeal.main_arg1 (by decide) (by decide))).trans (Cert.KernelIdeal.Fr.V_main_arg1 m c),
        ((h c).2 Cert.KernelIdeal.main_arg2 (Pipeline.mem_restRefs_of Cert.KernelIdeal.main_arg2 (by decide) (by decide))).trans (Cert.KernelIdeal.Fr.V_main_arg2 m c),
        ((h c).2 Cert.KernelIdeal.main_arg3 (Pipeline.mem_restRefs_of Cert.KernelIdeal.main_arg3 (by decide) (by decide))).trans (Cert.KernelIdeal.Fr.V_main_arg3 m c),
        ((h c).2 Cert.KernelIdeal.main_arg4 (Pipeline.mem_restRefs_of Cert.KernelIdeal.main_arg4 (by decide) (by decide))).trans (Cert.KernelIdeal.Fr.V_main_arg4 m c),
        ((h c).2 Cert.KernelIdeal.main_arg5 (Pipeline.mem_restRefs_of Cert.KernelIdeal.main_arg5 (by decide) (by decide))).trans (Cert.KernelIdeal.Fr.V_main_arg5 m c),
        ((h c).2 Cert.KernelIdeal.main_arg6 (Pipeline.mem_restRefs_of Cert.KernelIdeal.main_arg6 (by decide) (by decide))).trans (Cert.KernelIdeal.Fr.V_main_arg6 m c)⟩)
      (Cert.KernelIdeal.Fr.run_main (F := Ideal) m ρ)
  · exact (θ_run Cert.ReferenceIdeal.defs _ _).mono (fun _ h c =>
      ⟨(h c).1.trans (ref_result_eq m m' c (hpre c) (hagree c).1 (hagree c).2.1 (hagree c).2.2.1 (hagree c).2.2.2.1
          (hagree c).2.2.2.2.1 (hagree c).2.2.2.2.2.1 (hagree c).2.2.2.2.2.2), (h c).2⟩)
      (Cert.ReferenceIdeal.Value.run (F := Ideal) m' ρ')

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof.Claims

end
-- ==== Proof.lean ====
/-
  Single-head attention with the three projections fused into one kernel, against the plain jnp attention.

  Both programs compute, for every batch `n`, query row `s` and head column `d`,

      out[n, s, d] = ( ∑ₖ exp(a[s,k] − M[s]) · v[k,d] ) normalised by L[s] = ∑ₖ exp(a[s,k] − M[s]),

  where q, k, v are the affine projections `x·Wᵀ + b` of the input with the three weights, `a[s,k] = (q[s]·k[k]) · c` are
  the scaled logits and `M[s]` is the row's maximum. The kernel projects a whole batch once (one product against the three
  weights side by side, at the batch's first query tile), keeps q, k, v in scratch buffers across the batch's four query
  tiles, uses the literal scale `0.125` and divides the weighted sum by `L`; the reference computes the scale as
  `1/√64`, takes the maximum once more against `−∞`, starts its sum from `0` and divides every weight by `L` before the
  product with v. Over the extended reals, with every input finite, the two agree: `√64 = 8`, every logit is a real, so
  `M` is a real, every weight is a positive real, `L` is a positive real, and dividing a finite sum of reals by a nonzero
  real commutes with the sum. A change of float format is the identity at the ideal instance, so the kernel's roundings
  of x, the weights, q, k, v and the weights of the softmax do not enter.

  The frames: each kernel program runs its seven host operations (the weights transposed and laid side by side, the biases
  end to end) and then the sixteen grid points, the scratch buffers holding after each point what the batch's first point
  stored; the reference is a straight line of host operations.
-/
import proofs.«401241_j4398046511431_3_alg».proof.Proof.Claims

noncomputable section

namespace Cert.Proof

theorem claim : Cert.Claim := Cert.Proof.Claims.claim

end Cert.Proof

end
